-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S10000x1 : Shape := ⟨2, ![10000, 1]⟩
abbrev S1x64 : Shape := ⟨2, ![1, 64]⟩
abbrev S128 : Shape := ⟨1, ![128]⟩
abbrev S128x1 : Shape := ⟨2, ![128, 1]⟩
abbrev S128x10 : Shape := ⟨2, ![128, 10]⟩
abbrev S1x10 : Shape := ⟨2, ![1, 10]⟩
abbrev S1280 : Shape := ⟨1, ![1280]⟩

abbrev nBuf : Space → Nat
  | .hbm => 96
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S100000, .f32⟩
  | .hbm, ⟨43, _⟩ => ⟨S100000x1, .f32⟩
  | .hbm, ⟨44, _⟩ => ⟨S100000x64, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x64, .f32⟩
  | .hbm, ⟨54, _⟩ => ⟨S3200000x1, .f32⟩
  | .hbm, ⟨55, _⟩ => ⟨S3200000x64, .f32⟩
  | .hbm, ⟨56, _⟩ => ⟨S3200000x64, .f32⟩
  | .hbm, ⟨57, _⟩ => ⟨S_, .f32⟩
  | .hbm, ⟨58, _⟩ => ⟨S100000x64, .f32⟩
  | .hbm, ⟨59, _⟩ => ⟨S3200000x1, .i32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x64, .f32⟩
  | .hbm, ⟨72, _⟩ => ⟨S3200000x1, .f32⟩
  | .hbm, ⟨73, _⟩ => ⟨S3200000x64, .f32⟩
  | .hbm, ⟨74, _⟩ => ⟨S3200000x64, .f32⟩
  | .hbm, ⟨75, _⟩ => ⟨S_, .f32⟩
  | .hbm, ⟨76, _⟩ => ⟨S100000x64, .f32⟩
  | .hbm, ⟨77, _⟩ => ⟨S3200000x1, .i32⟩
  | .hbm, ⟨78, _⟩ => ⟨S100000x64, .f32⟩
  | .hbm, ⟨79, _⟩ => ⟨S100000x64, .f32⟩
  | .hbm, ⟨80, _⟩ => ⟨S100000x1, .i32⟩
  | .hbm, ⟨81, _⟩ => ⟨S128x64, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S128, .f32⟩
  | .hbm, ⟨86, _⟩ => ⟨S100000x1, .i32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128x1, .f32⟩
  | .hbm, ⟨92, _⟩ => ⟨S128x64, .f32⟩
  | .hbm, ⟨93, _⟩ => ⟨S128x64, .f32⟩
  | .hbm, ⟨94, _⟩ => ⟨S128x10, .f32⟩
  | .hbm, ⟨95, _⟩ => ⟨S1280, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x1, .i32⟩
  | .local _ .vmem, ⟨29, _⟩ => ⟨S10000x1, .i32⟩
  | .local _ .vmem, ⟨30, _⟩ => ⟨S10000x64, .f32⟩
  | .local _ .vmem, ⟨31, _⟩ => ⟨S10000x64, .f32⟩
  | .local _ .vmem, ⟨32, _⟩ => ⟨S128x64, .f32⟩
  | .local _ .vmem, ⟨33, _⟩ => ⟨S128x64, .f32⟩
  | .local _ .vmem, ⟨34, _⟩ => ⟨S64x10, .f32⟩
  | .local _ .vmem, ⟨35, _⟩ => ⟨S10, .f32⟩
  | .local _ .vmem, ⟨36, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc5_sem0_0 : DmaSem sig := 33
abbrev cc5_sem1_0 : DmaSem sig := 34
abbrev cc5_sem2_0 : DmaSem sig := 35
abbrev cc5_sem3_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  iota_S10000x128_d1_w32 : S10000x128.Iotas .tc 32 [1]
  broadcasts_S10000x1_S10000x128 : S10000x1.Broadcasts S10000x128
  natLt_1_32 : 1 < 32
  shapeCasts_S128x64_S128x64 : S128x64.ShapeCasts S128x64
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  shapeCasts_S128x10_S1280 : S128x10.ShapeCasts S1280
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x128_S10000x64_S128x64_0_0_1_1_n_n_wf : DotDims.WF S10000x128 S10000x64 S128x64 [0] [0] [1] [1] [] []
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S100000x1.size a
  hwx4_0 : ∀ i : grid4.Coords, EltTy.bits .i32 = 32 ∨ (Rect.block (s := S100000x1) S10000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x64.size a ≤ S128x64.size a
  hwx5_0 : ∀ i : grid5.Coords, EltTy.bits .f32 = 32 ∨ (Rect.block (s := S128x64) S128x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x10.size a ≤ S64x10.size a
  hwx5_1 : ∀ i : grid5.Coords, EltTy.bits .f32 = 32 ∨ (Rect.block (s := S64x10) S64x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10.size a ≤ S10.size a
  hwx5_2 : ∀ i : grid5.Coords, EltTy.bits .f32 = 32 ∨ (Rect.block (s := S10) S10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x10.size a ≤ S128x10.size a
  hwx5_3 : ∀ i : grid5.Coords, EltTy.bits .f32 = 32 ∨ (Rect.block (s := S128x10) S128x10.size (cc5_transform_3 i) (hinb5_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S128x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S128x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S64x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S128x10.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S128 : Shape := ⟨1, ![128]⟩
abbrev S128x1 : Shape := ⟨2, ![128, 1]⟩
abbrev S128x10 : Shape := ⟨2, ![128, 10]⟩
abbrev S1x10 : Shape := ⟨2, ![1, 10]⟩
abbrev S1280 : Shape := ⟨1, ![1280]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S_, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S3200000x1, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x64, .f32⟩
  | 53 => ⟨S3200000x64, .f32⟩
  | 54 => ⟨S3200000x64, .f32⟩
  | 55 => ⟨S_, .f32⟩
  | 56 => ⟨S100000x64, .f32⟩
  | 57 => ⟨S3200000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S3200000, .f32⟩
  | 73 => ⟨S_, .f32⟩
  | 74 => ⟨S100000, .f32⟩
  | 75 => ⟨S3200000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S3200000, .f32⟩
  | 100 => ⟨S3200000x1, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x64, .f32⟩
  | 110 => ⟨S3200000x64, .f32⟩
  | 111 => ⟨S3200000x64, .f32⟩
  | 112 => ⟨S_, .f32⟩
  | 113 => ⟨S100000x64, .f32⟩
  | 114 => ⟨S3200000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S128x64, .f32⟩
  | 126 => ⟨S100000x1, .i32⟩
  | 127 => ⟨S128x64, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S128, .f32⟩
  | 4 => ⟨S100000x1, .i32⟩
  | 5 => ⟨S128, .f32⟩
  | 6 => ⟨S_, .f32⟩
  | 7 => ⟨S128, .f32⟩
  | 8 => ⟨S128, .f32⟩
  | 9 => ⟨S128x1, .f32⟩
  | 10 => ⟨S128x64, .f32⟩
  | 11 => ⟨S128x64, .f32⟩
  | 12 => ⟨S128x10, .f32⟩
  | 13 => ⟨S1x10, .f32⟩
  | 14 => ⟨S128x10, .f32⟩
  | 15 => ⟨S128x10, .f32⟩
  | 16 => ⟨S1280, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_19 : Ref sig .tc := ⟨.hbm, 128, rfl⟩
abbrev main_v96 : Ref sig .tc := ⟨.hbm, 129, rfl⟩
abbrev main_cst_20 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_21 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  shapeCasts_S128x10_S1280 : S128x10.ShapeCasts S1280
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.Spec.lean ====
/-
  The six dense stages of the network, each as ONE function of whole arrays over the extended reals, spelled with the
  reference program's own operations (so that the reference's run contains these terms verbatim):

    * `dense1`, `dense2`  — the feature transforms X·W₁ ([100000,128]·[128,64]) and H·W₂ ([100000,64]·[64,64]);
    * `combineRelu`       — max(agg + s ⊙ XW + b, 0): the neighbour sum plus the self-loop term (the per-node scale
                             s = 1/deg, a column [100000,1] spread over the 64 features) plus the bias row, then the ramp;
    * `combine`           — the same without the ramp (the second layer);
    * `poolSum`           — the per-graph sums: row g of the [128,64] result is the sum of the node rows whose graph id is g
                             (an id outside 0…127 lands nowhere);
    * `linearOut`         — pooled·W_lin + b_lin ([128,64]·[64,10] plus the bias row).
-/
import proofs.«415113_j9629316678064_3_alg».proof.ReferenceIdeal
import Idealize.ShloMosaic.PureOps.Ideal

noncomputable section

namespace Cert.Spec

open Idealize.ShloMosaic Idealize.SL.Sem
open Cert.ReferenceIdeal Cert.ReferenceIdeal.Facts₀ Cert.ReferenceIdeal.Facts

variable [Cert.ReferenceIdeal.Facts]

/-- X·W₁: entry (n, j) is the sum over the 128 input features k of X[n,k]·W₁[k,j]. -/
def dense1 (x : FVec Ideal S100000x128 .f32) (w : FVec Ideal S128x64 .f32) : FVec Ideal S100000x64 .f32 :=
  Host.dotGeneral dot_S100000x128_S128x64_S100000x64_1_0_0_1_n_n none x w

/-- H·W₂: entry (n, j) is the sum over the 64 hidden features k of H[n,k]·W₂[k,j]. -/
def dense2 (h : FVec Ideal S100000x64 .f32) (w : FVec Ideal S64x64 .f32) : FVec Ideal S100000x64 .f32 :=
  Host.dotGeneral dot_S100000x64_S64x64_S100000x64_1_0_0_1_n_n none h w

/-- agg + s ⊙ XW + b without the ramp: entry (n, j) is agg[n,j] + s[n,0]·XW[n,j] + b[j]. -/
def combine (agg xw : FVec Ideal S100000x64 .f32) (s : FVec Ideal S100000x1 .f32) (b : FVec Ideal S64 .f32) :
    FVec Ideal S100000x64 .f32 :=
  addf (addf agg (mulf (broadcastInDim S100000x64 ![0, 1] bcast_S100000x1_S100000x64_0_1 s) xw))
    (broadcastInDim S100000x64 ![0, 1] bcast_S1x64_S100000x64_0_1 (broadcastInDim S1x64 ![1] bcast_S64_S1x64_1 b))

/-- max(agg + s ⊙ XW + b, 0), entry by entry. -/
def combineRelu (agg xw : FVec Ideal S100000x64 .f32) (s : FVec Ideal S100000x1 .f32) (b : FVec Ideal S64 .f32) :
    FVec Ideal S100000x64 .f32 :=
  maximumf (combine agg xw s b) (broadcastInDim S100000x64 ![] bcast_S_S100000x64 (constant S_ .f32 0x00000000#32))

/-- The per-graph sums: entry (g, j) is the sum of H[n,j] over the nodes n whose graph id (read signed) is g. -/
def poolSum (ids : IVec S100000x1 32) (h : FVec Ideal S100000x64 .f32) : FVec Ideal S128x64 .f32 :=
  Host.scatterAdd scatter_S128x64_S100000x1_S100000x64_1_0_0_1
    (broadcastInDim S128x64 ![] bcast_S_S128x64 (constant S_ .f32 0x00000000#32)) ids h

/-- pooled·W_lin + b_lin: entry (g, o) is the sum over the 64 features k of P[g,k]·W_lin[k,o], plus b_lin[o]. -/
def linearOut (p : FVec Ideal S128x64 .f32) (w : FVec Ideal S64x10 .f32) (b : FVec Ideal S10 .f32) : FVec Ideal S128x10 .f32 :=
  addf (Host.dotGeneral dot_S128x64_S64x10_S128x10_1_0_0_1_n_n none p w)
    (broadcastInDim S128x10 ![0, 1] bcast_S1x10_S128x10_0_1 (broadcastInDim S1x10 ![1] bcast_S10_S1x10_1 b))

end Cert.Spec

end
-- ==== Proof.Terms.lean ====
/-
  The host side of the network, shared by both programs, as small functions of the argument arrays over the extended reals,
  spelled with the reference program's operations:

    * `src`, `dst`   — the two rows of the edge list ([2, 3200000] → two vectors of 3,200,000 node ids);
    * `wrap`         — an id read for a GATHER: a negative id i is taken as i + 100000;
    * `dinv`         — deg^(-1/2), deg[n] = 1 + the number of edges whose destination is n;
    * `norm`         — the per-edge weight dinv[src]·dinv[dst];
    * `agg`          — the neighbour sum of a feature array XW: row n is the sum over edges e into n of norm[e]·XW[src e];
    * `scaleCol`     — the self-loop weight dinv² as a column [100000, 1];
    * `ids`          — the graph ids as a column [100000, 1];
    * `cnt`, `mean`  — max(nodes per graph, 1), and a [128,64] array of sums divided row by row by it;
    * `whole`        — the result: the two layers, the pooling mean and the projection, flattened to 1280 entries.
-/
import proofs.«415113_j9629316678064_3_alg».proof.ReferenceIdeal
import proofs.«415113_j9629316678064_3_alg».proof.Proof.Spec
import Idealize.ShloMosaic.PureOps.Ideal

noncomputable section

namespace Cert.Terms

open Idealize.ShloMosaic Idealize.SL.Sem
open Cert.ReferenceIdeal Cert.ReferenceIdeal.Facts₀ Cert.ReferenceIdeal.Facts

variable [Cert.ReferenceIdeal.Facts]

/-- Row 0 of the edge list: the edges' source nodes. -/
def src (e : IVec S2x3200000 32) : IVec S3200000 32 :=
  shapeCast S3200000 (extractStridedSlice S1x3200000 ![0, 0] e slices_S2x3200000_S1x3200000_0_0) shapeCasts_S1x3200000_S3200000

/-- Row 1 of the edge list: the edges' destination nodes. -/
def dst (e : IVec S2x3200000 32) : IVec S3200000 32 :=
  shapeCast S3200000 (extractStridedSlice S1x3200000 ![1, 0] e slices_S2x3200000_S1x3200000_1_0) shapeCasts_S1x3200000_S3200000

/-- An id as a gather reads it: i + 100000 when i is negative, else i. -/
def wrap (i : IVec S3200000 32) : IVec S3200000 32 :=
  select (cmpi .slt i (broadcastInDim S3200000 ![] bcast_S_S3200000 (constantI S_ 32 0#32)))
    (addi i (broadcastInDim S3200000 ![] bcast_S_S3200000 (constantI S_ 32 100000#32))) i

/-- deg^(-1/2): the edges into each node counted by a scatter-add of ones, plus one for the self loop, then rsqrt. -/
def dinv (e : IVec S2x3200000 32) : FVec Ideal S100000 .f32 :=
  Host.rsqrt (addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 (dst e))
      (broadcastInDim S3200000 ![] bcast_S_S3200000 (constant S_ .f32 0x3F800000#32)))
    (broadcastInDim S100000 ![] bcast_S_S100000 (constant S_ .f32 0x3F800000#32)))

/-- The per-edge weight dinv[src]·dinv[dst]. -/
def norm (e : IVec S2x3200000 32) : FVec Ideal S3200000 .f32 :=
  mulf
    (Host.gather gather_S100000_S3200000x1_S3200000_n_0_n_n_0_1_1 (dinv e)
      (broadcastInDim S3200000x1 ![0] bcast_S3200000_S3200000x1_0 (wrap (src e))))
    (Host.gather gather_S100000_S3200000x1_S3200000_n_0_n_n_0_1_1 (dinv e)
      (broadcastInDim S3200000x1 ![0] bcast_S3200000_S3200000x1_0 (wrap (dst e))))

/-- The neighbour sum: the rows XW[src] weighted by the edge weights, scatter-added at the destinations. -/
def agg (e : IVec S2x3200000 32) (xw : FVec Ideal S100000x64 .f32) : FVec Ideal S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 (dst e))
    (mulf
      (broadcastInDim S3200000x64 ![0, 1] bcast_S3200000x1_S3200000x64_0_1
        (broadcastInDim S3200000x1 ![0] bcast_S3200000_S3200000x1_0 (norm e)))
      (Host.gather gather_S100000x64_S3200000x1_S3200000x64_1_0_n_n_0_1_164 xw
        (broadcastInDim S3200000x1 ![0] bcast_S3200000_S3200000x1_0 (wrap (src e)))))

/-- The self-loop weight dinv² as a column. -/
def scaleCol (e : IVec S2x3200000 32) : FVec Ideal S100000x1 .f32 :=
  broadcastInDim S100000x1 ![0] bcast_S100000_S100000x1_0 (mulf (dinv e) (dinv e))

/-- The graph ids as a column. -/
def ids (g : IVec S100000 32) : IVec S100000x1 32 :=
  broadcastInDim S100000x1 ![0] bcast_S100000_S100000x1_0 g

/-- max(number of nodes of each graph, 1). -/
def cnt (g : IVec S100000 32) : FVec Ideal S128 .f32 :=
  maximumf
    (Host.scatterAdd scatter_S128_S100000x1_S100000_n_0_0_1
      (broadcastInDim S128 ![] bcast_S_S128 (constant S_ .f32 0x00000000#32))
      (broadcastInDim S100000x1 ![0] bcast_S100000_S100000x1_0 g)
      (broadcastInDim S100000 ![] bcast_S_S100000 (constant S_ .f32 0x3F800000#32)))
    (broadcastInDim S128 ![] bcast_S_S128 (constant S_ .f32 0x3F800000#32))

/-- Per-graph sums divided, row by row, by the graph's node count (at least 1). -/
def mean (g : IVec S100000 32) (ps : FVec Ideal S128x64 .f32) : FVec Ideal S128x64 .f32 :=
  Host.divf ps
    (broadcastInDim S128x64 ![0, 1] bcast_S128x1_S128x64_0_1 (broadcastInDim S128x1 ![0] bcast_S128_S128x1_0 (cnt g)))

/-- The first layer's output. -/
def layer1 (x : FVec Ideal S100000x128 .f32) (e : IVec S2x3200000 32) (w1 : FVec Ideal S128x64 .f32)
    (b1 : FVec Ideal S64 .f32) : FVec Ideal S100000x64 .f32 :=
  Cert.Spec.combineRelu (agg e (Cert.Spec.dense1 x w1)) (Cert.Spec.dense1 x w1) (scaleCol e) b1

/-- The second layer's output, from the first layer's. -/
def layer2 (h : FVec Ideal S100000x64 .f32) (e : IVec S2x3200000 32) (w2 : FVec Ideal S64x64 .f32)
    (b2 : FVec Ideal S64 .f32) : FVec Ideal S100000x64 .f32 :=
  Cert.Spec.combine (agg e (Cert.Spec.dense2 h w2)) (Cert.Spec.dense2 h w2) (scaleCol e) b2

/-- The whole network: two layers, the per-graph mean, the projection, flattened. -/
def whole (x : FVec Ideal S100000x128 .f32) (e : IVec S2x3200000 32) (g : IVec S100000 32)
    (w1 : FVec Ideal S128x64 .f32) (b1 : FVec Ideal S64 .f32) (w2 : FVec Ideal S64x64 .f32) (b2 : FVec Ideal S64 .f32)
    (wl : FVec Ideal S64x10 .f32) (bl : FVec Ideal S10 .f32) : FVec Ideal S1280 .f32 :=
  shapeCast S1280
    (Cert.Spec.linearOut (mean g (Cert.Spec.poolSum (ids g) (layer2 (layer1 x e w1 b1) e w2 b2))) wl bl)
    shapeCasts_S128x10_S1280

end Cert.Terms

end
-- ==== Proof.Col.lean ====
/- A column is a column: a vector of 100000 entries reshaped to [100000, 1] and the same vector broadcast along a new
   trailing unit axis hold the same entry at (p, 0), namely entry p. -/
import proofs.«415113_j9629316678064_3_alg».proof.KernelIdeal
import proofs.«415113_j9629316678064_3_alg».proof.ReferenceIdeal
import Idealize.ShloMosaic.Lib.Pipeline.Value
import Idealize.ShloMosaic.Lib.ValueIdx

noncomputable section

namespace Cert.KernelIdeal.Col

open Idealize.ShloMosaic Idealize.SL.Sem

/-- Entry (p, 0) of a vector reshaped to a column, and of the vector broadcast along a new unit axis, is entry p. -/
theorem col_eq [Cert.KernelIdeal.Facts] [Cert.ReferenceIdeal.Facts] {α : Type} (x : Cert.KernelIdeal.S100000.Idx → α) :
    shapeCast Cert.KernelIdeal.S100000x1 x Cert.KernelIdeal.Facts₀.shapeCasts_S100000_S100000x1
      = broadcastInDim Cert.ReferenceIdeal.S100000x1 ![0] Cert.ReferenceIdeal.Facts₀.bcast_S100000_S100000x1_0 x := by
  funext j
  obtain ⟨p, q, rfl⟩ : ∃ (p : Fin 100000) (q : Fin 1), j = ValueIdx.ix2 p q := ⟨j 0, j 1, ValueIdx.eq_ix2 j⟩
  have hq : q.val = 0 := by omega
  rw [shapeCast_apply x _ (ValueIdx.ix2 p q) (ValueIdx.ix1 p) (by
        rw [Shape.rowMajor_val_one, Shape.rowMajor_val_two]
        show p.val = p.val * 1 + q.val
        omega)]
  rw [broadcastInDim_apply _ _ x (ValueIdx.ix2 p q) (ValueIdx.ix1 p) (fun a => by
        match a with
        | ⟨0, _⟩ => rfl)]

end Cert.KernelIdeal.Col

end
-- ==== Proof.Fold.lean ====
/-
  The kernel program's result, read back through its twelve segments. Between the launch memory and the returned buffer
  the program alternates stretches of host operations with the six dense stages; at each boundary a buffer either holds
  what the segment just computed, or is an array no operation of the segment writes and holds what it held before. Walking
  the boundaries in order gives the returned buffer as `Cert.Terms.whole` of the nine argument arrays.

  The six dense stages enter as hypotheses `h0 … h5`: "after the stage, its output array holds the stage's function of the
  arrays the stage was entered with", for ANY entry contents.
-/
import proofs.«415113_j9629316678064_3_alg».proof.Proof.Gen.KernelIdeal.Frame
import proofs.«415113_j9629316678064_3_alg».proof.Proof.Gen.ReferenceIdeal
import proofs.«415113_j9629316678064_3_alg».proof.Proof.Terms
import proofs.«415113_j9629316678064_3_alg».proof.Proof.Col
import Idealize.ShloMosaic.Lib.StableHlo.Run
import Idealize.ShloMosaic.Lib.Pipeline.Value
import Idealize.ShloMosaic.Lib.ValueIdx

set_option maxRecDepth 16384

noncomputable section

namespace Cert.KernelIdeal.Fold

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

-- the nine argument arrays as launched

/-- A stretch of host operations leaves a buffer none of them writes as it was. -/
local macro "unwritten " ops:ident : tactic => `(tactic|
  exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Buffers carried unchanged across a segment -/

-- the first host stretch writes no argument
theorem W1_arg0 : W1 m ρ c (Proc.devRef .tc main_arg0) = m ((c : Thread nD τ).loc main_arg0) :=
  (show W1 m ρ c (Proc.devRef .tc main_arg0) = W0 m ρ c (Proc.devRef .tc main_arg0) by unwritten hostOps0).trans rfl
theorem W1_arg3 : W1 m ρ c (Proc.devRef .tc main_arg3) = m ((c : Thread nD τ).loc main_arg3) :=
  (show W1 m ρ c (Proc.devRef .tc main_arg3) = W0 m ρ c (Proc.devRef .tc main_arg3) by unwritten hostOps0).trans rfl
theorem W1_arg4 : W1 m ρ c (Proc.devRef .tc main_arg4) = m ((c : Thread nD τ).loc main_arg4) :=
  (show W1 m ρ c (Proc.devRef .tc main_arg4) = W0 m ρ c (Proc.devRef .tc main_arg4) by unwritten hostOps0).trans rfl
theorem W1_arg5 : W1 m ρ c (Proc.devRef .tc main_arg5) = m ((c : Thread nD τ).loc main_arg5) :=
  (show W1 m ρ c (Proc.devRef .tc main_arg5) = W0 m ρ c (Proc.devRef .tc main_arg5) by unwritten hostOps0).trans rfl
theorem W1_arg6 : W1 m ρ c (Proc.devRef .tc main_arg6) = m ((c : Thread nD τ).loc main_arg6) :=
  (show W1 m ρ c (Proc.devRef .tc main_arg6) = W0 m ρ c (Proc.devRef .tc main_arg6) by unwritten hostOps0).trans rfl

-- stage 0 (X·W₁) writes only its product
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v25 : W2 m ρ c (Proc.devRef .tc main_v25) = W1 m ρ c (Proc.devRef .tc main_v25) := W2_of_ne m ρ c main_v25 (by decide)
theorem W2_v27 : W2 m ρ c (Proc.devRef .tc main_v27) = W1 m ρ c (Proc.devRef .tc main_v27) := W2_of_ne m ρ c main_v27 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)

-- the second host stretch (the first neighbour sum)
theorem W3_v1 : W3 m ρ c (Proc.devRef .tc main_v1) = W2 m ρ c (Proc.devRef .tc main_v1) := by unwritten hostOps1
theorem W3_v3 : W3 m ρ c (Proc.devRef .tc main_v3) = W2 m ρ c (Proc.devRef .tc main_v3) := by unwritten hostOps1
theorem W3_v25 : W3 m ρ c (Proc.devRef .tc main_v25) = W2 m ρ c (Proc.devRef .tc main_v25) := by unwritten hostOps1
theorem W3_v27 : W3 m ρ c (Proc.devRef .tc main_v27) = W2 m ρ c (Proc.devRef .tc main_v27) := by unwritten hostOps1
theorem W3_v28 : W3 m ρ c (Proc.devRef .tc main_v28) = W2 m ρ c (Proc.devRef .tc main_v28) := by unwritten hostOps1
theorem W3_arg4 : W3 m ρ c (Proc.devRef .tc main_arg4) = W2 m ρ c (Proc.devRef .tc main_arg4) := by unwritten hostOps1
theorem W3_arg5 : W3 m ρ c (Proc.devRef .tc main_arg5) = W2 m ρ c (Proc.devRef .tc main_arg5) := by unwritten hostOps1
theorem W3_arg6 : W3 m ρ c (Proc.devRef .tc main_arg6) = W2 m ρ c (Proc.devRef .tc main_arg6) := by unwritten hostOps1

-- stage 1 (the first combine): the scale column is one of its inputs
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_v25 : W4 m ρ c (Proc.devRef .tc main_v25) = W3 m ρ c (Proc.devRef .tc main_v25) := W4_of_ne m ρ c main_v25 (by decide)
theorem W4_arg5 : W4 m ρ c (Proc.devRef .tc main_arg5) = W3 m ρ c (Proc.devRef .tc main_arg5) := W4_of_ne m ρ c main_arg5 (by decide)
theorem W4_arg6 : W4 m ρ c (Proc.devRef .tc main_arg6) = W3 m ρ c (Proc.devRef .tc main_arg6) := W4_of_ne m ρ c main_arg6 (by decide)
theorem W4_v27 : W4 m ρ c (Proc.devRef .tc main_v27) = W3 m ρ c (Proc.devRef .tc main_v27) :=
  (W4_arr m ρ c 2).trans (((dat1 (V3 m ρ) c).arrAt_in 2 rfl _).trans (A_eq1 (V3 m ρ) c 2))

-- stage 2 (H·W₂)
theorem W5_v1 : W5 m ρ c (Proc.devRef .tc main_v1) = W4 m ρ c (Proc.devRef .tc main_v1) := W5_of_ne m ρ c main_v1 (by decide)
theorem W5_v3 : W5 m ρ c (Proc.devRef .tc main_v3) = W4 m ρ c (Proc.devRef .tc main_v3) := W5_of_ne m ρ c main_v3 (by decide)
theorem W5_v25 : W5 m ρ c (Proc.devRef .tc main_v25) = W4 m ρ c (Proc.devRef .tc main_v25) := W5_of_ne m ρ c main_v25 (by decide)
theorem W5_v27 : W5 m ρ c (Proc.devRef .tc main_v27) = W4 m ρ c (Proc.devRef .tc main_v27) := W5_of_ne m ρ c main_v27 (by decide)
theorem W5_arg6 : W5 m ρ c (Proc.devRef .tc main_arg6) = W4 m ρ c (Proc.devRef .tc main_arg6) := W5_of_ne m ρ c main_arg6 (by decide)

-- the third host stretch (the second neighbour sum)
theorem W6_v27 : W6 m ρ c (Proc.devRef .tc main_v27) = W5 m ρ c (Proc.devRef .tc main_v27) := by unwritten hostOps3
theorem W6_v43 : W6 m ρ c (Proc.devRef .tc main_v43) = W5 m ρ c (Proc.devRef .tc main_v43) := by unwritten hostOps3
theorem W6_arg6 : W6 m ρ c (Proc.devRef .tc main_arg6) = W5 m ρ c (Proc.devRef .tc main_arg6) := by unwritten hostOps3

-- the fourth host stretch (the id column), stage 4 (pooling), the fifth stretch (the mean), stage 5, the last reshape:
-- the graph ids and the projection's weights, walked back from the last boundary, where they are the launch contents
theorem W8_arg2 : W8 m ρ c (Proc.devRef .tc main_arg2) = W7 m ρ c (Proc.devRef .tc main_arg2) := by unwritten hostOps4
theorem W9_arg2 : W9 m ρ c (Proc.devRef .tc main_arg2) = W8 m ρ c (Proc.devRef .tc main_arg2) := W9_of_ne m ρ c main_arg2 (by decide)
theorem W10_arg2 : W10 m ρ c (Proc.devRef .tc main_arg2) = W9 m ρ c (Proc.devRef .tc main_arg2) := by unwritten hostOps5
theorem W11_arg2 : W11 m ρ c (Proc.devRef .tc main_arg2) = W10 m ρ c (Proc.devRef .tc main_arg2) := W11_of_ne m ρ c main_arg2 (by decide)
theorem W12_arg2 : W12 m ρ c (Proc.devRef .tc main_arg2) = W11 m ρ c (Proc.devRef .tc main_arg2) := by unwritten hostOps6
theorem W8_v57 : W8 m ρ c (Proc.devRef .tc main_v57) = W7 m ρ c (Proc.devRef .tc main_v57) := by unwritten hostOps4
theorem W11_arg7 : W11 m ρ c (Proc.devRef .tc main_arg7) = W10 m ρ c (Proc.devRef .tc main_arg7) :=
  (W11_arr m ρ c 1).trans (((dat5 (V10 m ρ) c).arrAt_in 1 rfl _).trans (A_eq5 (V10 m ρ) c 1))
theorem W11_arg8 : W11 m ρ c (Proc.devRef .tc main_arg8) = W10 m ρ c (Proc.devRef .tc main_arg8) :=
  (W11_arr m ρ c 2).trans (((dat5 (V10 m ρ) c).arrAt_in 2 rfl _).trans (A_eq5 (V10 m ρ) c 2))
theorem W12_arg7 : W12 m ρ c (Proc.devRef .tc main_arg7) = W11 m ρ c (Proc.devRef .tc main_arg7) := by unwritten hostOps6
theorem W12_arg8 : W12 m ρ c (Proc.devRef .tc main_arg8) = W11 m ρ c (Proc.devRef .tc main_arg8) := by unwritten hostOps6

theorem W9_ids : W9 m ρ c (Proc.devRef .tc main_arg2) = (m ((c : Thread nD τ).loc main_arg2)) :=
  (W10_arg2 m ρ c).symm.trans ((W11_arg2 m ρ c).symm.trans ((W12_arg2 m ρ c).symm.trans (W12_main_arg2 m ρ c)))
theorem W7_ids : W7 m ρ c (Proc.devRef .tc main_arg2) = (m ((c : Thread nD τ).loc main_arg2)) :=
  (W8_arg2 m ρ c).symm.trans ((W9_arg2 m ρ c).symm.trans (W9_ids m ρ c))
theorem W10_wl : W10 m ρ c (Proc.devRef .tc main_arg7) = (m ((c : Thread nD τ).loc main_arg7)) :=
  (W11_arg7 m ρ c).symm.trans ((W12_arg7 m ρ c).symm.trans (W12_main_arg7 m ρ c))
theorem W10_bl : W10 m ρ c (Proc.devRef .tc main_arg8) = (m ((c : Thread nD τ).loc main_arg8)) :=
  (W11_arg8 m ρ c).symm.trans ((W12_arg8 m ρ c).symm.trans (W12_main_arg8 m ρ c))

/-! ## The first host stretch: the edge rows, the edge weights, the self-loop column -/

theorem W1_src : W1 m ρ c (Proc.devRef .tc main_v1) = Cert.Terms.src (m ((c : Thread nD τ).loc main_arg1)) := by
  show StableHlo.after hostOps0 (W0 m ρ c) (Proc.devRef .tc main_v1) = _
  after_results; rfl
theorem W1_dst : W1 m ρ c (Proc.devRef .tc main_v3) = Cert.Terms.dst (m ((c : Thread nD τ).loc main_arg1)) := by
  show StableHlo.after hostOps0 (W0 m ρ c) (Proc.devRef .tc main_v3) = _
  after_results; rfl
set_option maxHeartbeats 2000000 in
theorem W1_norm : W1 m ρ c (Proc.devRef .tc main_v25) = Cert.Terms.norm (m ((c : Thread nD τ).loc main_arg1)) := by
  show StableHlo.after hostOps0 (W0 m ρ c) (Proc.devRef .tc main_v25) = _
  after_results_simp <;> rfl
set_option maxHeartbeats 2000000 in
theorem W1_scale : W1 m ρ c (Proc.devRef .tc main_v27) = Cert.Terms.scaleCol (m ((c : Thread nD τ).loc main_arg1)) := by
  show StableHlo.after hostOps0 (W0 m ρ c) (Proc.devRef .tc main_v27) = _
  after_results_simp
  exact Cert.KernelIdeal.Col.col_eq (mulf (Cert.Terms.dinv (m ((c : Thread nD τ).loc main_arg1))) (Cert.Terms.dinv (m ((c : Thread nD τ).loc main_arg1))))

/-! ## The six dense stages, as hypotheses -/

section Stages

variable
  (h0 : ∀ (V : (c : Dev nD) → (b : Ref sig .tc) → Buf (Elt Ideal) ((c : Thread nD τ).loc b)) (c : Dev nD), (dat0 (F := Ideal) V c).arrAt 2 cfg0.N
      = (Cert.Spec.dense1 (V c main_arg0) (V c main_arg3) : Cert.ReferenceIdeal.S100000x64.Idx → EReal))
  (h1 : ∀ (V : (c : Dev nD) → (b : Ref sig .tc) → Buf (Elt Ideal) ((c : Thread nD τ).loc b)) (c : Dev nD), (dat1 (F := Ideal) V c).arrAt 4 cfg1.N
      = (Cert.Spec.combineRelu (V c main_v41) (V c main_v28) (V c main_v27) (V c main_arg4) : Cert.ReferenceIdeal.S100000x64.Idx → EReal))
  (h2 : ∀ (V : (c : Dev nD) → (b : Ref sig .tc) → Buf (Elt Ideal) ((c : Thread nD τ).loc b)) (c : Dev nD), (dat2 (F := Ideal) V c).arrAt 2 cfg2.N
      = (Cert.Spec.dense2 (V c main_v42) (V c main_arg5) : Cert.ReferenceIdeal.S100000x64.Idx → EReal))
  (h3 : ∀ (V : (c : Dev nD) → (b : Ref sig .tc) → Buf (Elt Ideal) ((c : Thread nD τ).loc b)) (c : Dev nD), (dat3 (F := Ideal) V c).arrAt 4 cfg3.N
      = (Cert.Spec.combine (V c main_v56) (V c main_v43) (V c main_v27) (V c main_arg6) : Cert.ReferenceIdeal.S100000x64.Idx → EReal))
  (h4 : ∀ (V : (c : Dev nD) → (b : Ref sig .tc) → Buf (Elt Ideal) ((c : Thread nD τ).loc b)) (c : Dev nD), (dat4 (F := Ideal) V c).arrAt 2 cfg4.N
      = (Cert.Spec.poolSum (V c main_v58) (V c main_v57) : Cert.ReferenceIdeal.S128x64.Idx → EReal))
  (h5 : ∀ (V : (c : Dev nD) → (b : Ref sig .tc) → Buf (Elt Ideal) ((c : Thread nD τ).loc b)) (c : Dev nD), (dat5 (F := Ideal) V c).arrAt 3 cfg5.N
      = (Cert.Spec.linearOut (V c main_v68) (V c main_arg7) (V c main_arg8) : Cert.ReferenceIdeal.S128x10.Idx → EReal))

/-! ## Stage 0: X·W₁ -/

include h0 in
theorem W2_xw1 : W2 m ρ c (Proc.devRef .tc main_v28) = Cert.Spec.dense1 (m ((c : Thread nD τ).loc main_arg0)) (m ((c : Thread nD τ).loc main_arg3)) :=
  (W2_arr m ρ c 2).trans ((h0 (V1 m ρ) c).trans (by
    rw [show V1 m ρ c main_arg0 = (m ((c : Thread nD τ).loc main_arg0)) from W1_arg0 m ρ c, show V1 m ρ c main_arg3 = (m ((c : Thread nD τ).loc main_arg3)) from W1_arg3 m ρ c]))

/-! ## The first neighbour sum -/

set_option maxHeartbeats 2000000 in
include h0 in
theorem W3_agg1 : W3 m ρ c (Proc.devRef .tc main_v41) = Cert.Terms.agg (m ((c : Thread nD τ).loc main_arg1)) (Cert.Spec.dense1 (m ((c : Thread nD τ).loc main_arg0)) (m ((c : Thread nD τ).loc main_arg3))) := by
  have e28 := W2_xw1 m ρ c h0
  have e1 := (W2_v1 m ρ c).trans (W1_src m ρ c)
  have e3 := (W2_v3 m ρ c).trans (W1_dst m ρ c)
  have e25 := (W2_v25 m ρ c).trans (W1_norm m ρ c)
  show StableHlo.after hostOps1 (W2 m ρ c) (Proc.devRef .tc main_v41) = _
  generalize W2 m ρ c = Wb at e28 e1 e3 e25 ⊢
  after_results
  rw [e28, e1, e3, e25]
  rfl

/-! ## Stage 1: the first layer's output -/

include h0 h1 in
theorem W4_h1 : W4 m ρ c (Proc.devRef .tc main_v42) = Cert.Terms.layer1 (m ((c : Thread nD τ).loc main_arg0)) (m ((c : Thread nD τ).loc main_arg1)) (m ((c : Thread nD τ).loc main_arg3)) (m ((c : Thread nD τ).loc main_arg4)) :=
  (W4_arr m ρ c 4).trans ((h1 (V3 m ρ) c).trans (by
    rw [show V3 m ρ c main_v41 = _ from W3_agg1 m ρ c h0,
      show V3 m ρ c main_v28 = _ from (W3_v28 m ρ c).trans (W2_xw1 m ρ c h0),
      show V3 m ρ c main_v27 = _ from (W3_v27 m ρ c).trans ((W2_v27 m ρ c).trans (W1_scale m ρ c)),
      show V3 m ρ c main_arg4 = (m ((c : Thread nD τ).loc main_arg4)) from (W3_arg4 m ρ c).trans ((W2_arg4 m ρ c).trans (W1_arg4 m ρ c))]
    rfl))

/-! ## Stage 2: H·W₂ -/

include h0 h1 h2 in
theorem W5_xw2 : W5 m ρ c (Proc.devRef .tc main_v43)
    = Cert.Spec.dense2 (Cert.Terms.layer1 (m ((c : Thread nD τ).loc main_arg0)) (m ((c : Thread nD τ).loc main_arg1)) (m ((c : Thread nD τ).loc main_arg3)) (m ((c : Thread nD τ).loc main_arg4))) (m ((c : Thread nD τ).loc main_arg5)) :=
  (W5_arr m ρ c 2).trans ((h2 (V4 m ρ) c).trans (by
    rw [show V4 m ρ c main_v42 = _ from W4_h1 m ρ c h0 h1,
      show V4 m ρ c main_arg5 = (m ((c : Thread nD τ).loc main_arg5)) from (W4_arg5 m ρ c).trans ((W3_arg5 m ρ c).trans ((W2_arg5 m ρ c).trans (W1_arg5 m ρ c)))]))

/-! ## The second neighbour sum -/

theorem W5_src : W5 m ρ c (Proc.devRef .tc main_v1) = Cert.Terms.src (m ((c : Thread nD τ).loc main_arg1)) :=
  (W5_v1 m ρ c).trans ((W4_v1 m ρ c).trans ((W3_v1 m ρ c).trans ((W2_v1 m ρ c).trans (W1_src m ρ c))))
theorem W5_dst : W5 m ρ c (Proc.devRef .tc main_v3) = Cert.Terms.dst (m ((c : Thread nD τ).loc main_arg1)) :=
  (W5_v3 m ρ c).trans ((W4_v3 m ρ c).trans ((W3_v3 m ρ c).trans ((W2_v3 m ρ c).trans (W1_dst m ρ c))))
theorem W5_norm : W5 m ρ c (Proc.devRef .tc main_v25) = Cert.Terms.norm (m ((c : Thread nD τ).loc main_arg1)) :=
  (W5_v25 m ρ c).trans ((W4_v25 m ρ c).trans ((W3_v25 m ρ c).trans ((W2_v25 m ρ c).trans (W1_norm m ρ c))))
theorem W5_scale : W5 m ρ c (Proc.devRef .tc main_v27) = Cert.Terms.scaleCol (m ((c : Thread nD τ).loc main_arg1)) :=
  (W5_v27 m ρ c).trans ((W4_v27 m ρ c).trans ((W3_v27 m ρ c).trans ((W2_v27 m ρ c).trans (W1_scale m ρ c))))
theorem W5_b2 : W5 m ρ c (Proc.devRef .tc main_arg6) = (m ((c : Thread nD τ).loc main_arg6)) :=
  (W5_arg6 m ρ c).trans ((W4_arg6 m ρ c).trans ((W3_arg6 m ρ c).trans ((W2_arg6 m ρ c).trans (W1_arg6 m ρ c))))

set_option maxHeartbeats 2000000 in
include h0 h1 h2 in
theorem W6_agg2 : W6 m ρ c (Proc.devRef .tc main_v56)
    = Cert.Terms.agg (m ((c : Thread nD τ).loc main_arg1)) (Cert.Spec.dense2 (Cert.Terms.layer1 (m ((c : Thread nD τ).loc main_arg0)) (m ((c : Thread nD τ).loc main_arg1)) (m ((c : Thread nD τ).loc main_arg3)) (m ((c : Thread nD τ).loc main_arg4))) (m ((c : Thread nD τ).loc main_arg5))) := by
  have e43 := W5_xw2 m ρ c h0 h1 h2
  have e1 := W5_src m ρ c
  have e3 := W5_dst m ρ c
  have e25 := W5_norm m ρ c
  show StableHlo.after hostOps3 (W5 m ρ c) (Proc.devRef .tc main_v56) = _
  generalize W5 m ρ c = Wb at e43 e1 e3 e25 ⊢
  after_results
  rw [e43, e1, e3, e25]
  rfl

/-! ## Stage 3: the second layer's output -/

include h0 h1 h2 h3 in
theorem W7_h2 : W7 m ρ c (Proc.devRef .tc main_v57)
    = Cert.Terms.layer2 (Cert.Terms.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6)) :=
  (W7_arr m ρ c 4).trans ((h3 (V6 m ρ) c).trans (by
    rw [show V6 m ρ c main_v56 = _ from W6_agg2 m ρ c h0 h1 h2,
      show V6 m ρ c main_v43 = _ from (W6_v43 m ρ c).trans (W5_xw2 m ρ c h0 h1 h2),
      show V6 m ρ c main_v27 = _ from (W6_v27 m ρ c).trans (W5_scale m ρ c),
      show V6 m ρ c main_arg6 = (m ((c : Thread nD τ).loc main_arg6)) from (W6_arg6 m ρ c).trans (W5_b2 m ρ c)]
    rfl))

/-! ## The id column, stage 4 (the per-graph sums), the mean -/

theorem W8_ids : W8 m ρ c (Proc.devRef .tc main_v58) = Cert.Terms.ids (m ((c : Thread nD τ).loc main_arg2)) := by
  show StableHlo.after hostOps4 (W7 m ρ c) (Proc.devRef .tc main_v58) = _
  after_results
  rw [W7_ids m ρ c]
  exact Cert.KernelIdeal.Col.col_eq (m ((c : Thread nD τ).loc main_arg2))

include h0 h1 h2 h3 h4 in
theorem W9_pool : W9 m ρ c (Proc.devRef .tc main_v59)
    = Cert.Spec.poolSum (Cert.Terms.ids (m ((c : Thread nD τ).loc main_arg2))) (Cert.Terms.layer2 (Cert.Terms.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) :=
  (W9_arr m ρ c 2).trans ((h4 (V8 m ρ) c).trans (by
    rw [show V8 m ρ c main_v58 = _ from W8_ids m ρ c,
      show V8 m ρ c main_v57 = _ from (W8_v57 m ρ c).trans (W7_h2 m ρ c h0 h1 h2 h3)]))

set_option maxHeartbeats 2000000 in
include h0 h1 h2 h3 h4 in
theorem W10_mean : W10 m ρ c (Proc.devRef .tc main_v68)
    = Cert.Terms.mean (m ((c : Thread nD τ).loc main_arg2)) (Cert.Spec.poolSum (Cert.Terms.ids (m ((c : Thread nD τ).loc main_arg2)))
        (Cert.Terms.layer2 (Cert.Terms.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6)))) := by
  have e59 := W9_pool m ρ c h0 h1 h2 h3 h4
  have eg := W9_ids m ρ c
  show StableHlo.after hostOps5 (W9 m ρ c) (Proc.devRef .tc main_v68) = _
  generalize W9 m ρ c = Wb at e59 eg ⊢
  after_results
  rw [e59, eg]
  rfl

/-! ## Stage 5 (the projection) and the last reshape -/

include h0 h1 h2 h3 h4 h5 in
theorem W11_out : W11 m ρ c (Proc.devRef .tc main_v69)
    = Cert.Spec.linearOut (Cert.Terms.mean (m ((c : Thread nD τ).loc main_arg2)) (Cert.Spec.poolSum (Cert.Terms.ids (m ((c : Thread nD τ).loc main_arg2)))
        (Cert.Terms.layer2 (Cert.Terms.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))))) (m ((c : Thread nD τ).loc main_arg7)) (m ((c : Thread nD τ).loc main_arg8)) :=
  (W11_arr m ρ c 3).trans ((h5 (V10 m ρ) c).trans (by
    rw [show V10 m ρ c main_v68 = _ from W10_mean m ρ c h0 h1 h2 h3 h4,
      show V10 m ρ c main_arg7 = (m ((c : Thread nD τ).loc main_arg7)) from W10_wl m ρ c, show V10 m ρ c main_arg8 = (m ((c : Thread nD τ).loc main_arg8)) from W10_bl m ρ c]))

include h0 h1 h2 h3 h4 h5 in
/-- The returned buffer at the last boundary is the whole network's function of the nine argument arrays. -/
theorem W12_out : W12 m ρ c (Proc.devRef .tc main_v70) = Cert.Terms.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W11 m ρ c) (Proc.devRef .tc main_v70) = _
  after_results
  rw [W11_out m ρ c h0 h1 h2 h3 h4 h5]
  rfl

end Stages

end Cert.KernelIdeal.Fold

end
-- ==== Proof.RefRun.lean ====
/-
  The reference program's run, read back: every weakly fair execution ends with the result buffer at the composed term of
  the argument arrays, and that term is `Cert.Terms.whole` — the same operations, grouped under their names.
-/
import proofs.«415113_j9629316678064_3_alg».proof.Proof.Gen.ReferenceIdeal.Run
import proofs.«415113_j9629316678064_3_alg».proof.Proof.Terms

set_option maxRecDepth 16384

noncomputable section

namespace Cert.ReferenceIdeal.RefValue

open Idealize.ShloMosaic Idealize.ShloMosaic.TcCoe Idealize.SL.Sem
open Cert.ReferenceIdeal

variable (m : (ℓ : Loc nD τ sig) → Buf (Elt Ideal) ℓ) (c : Dev nD)

set_option maxHeartbeats 4000000 in
/-- The run's composed term is the network's function of the nine argument arrays. -/
theorem res_eq : Cert.ReferenceIdeal.Value.res_main_v109 (F := Ideal) m c
    = Cert.Terms.whole (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) := by
  unfold Cert.ReferenceIdeal.Value.res_main_v109
  rfl

end Cert.ReferenceIdeal.RefValue

end
-- ==== Proof.Reg0.lean ====
/- The first feature transform, tile by tile: the ten row tiles of X·W₁ written back by the ten grid points are the ten
   row blocks of the whole product, and together they cover the array. -/
import proofs.«415113_j9629316678064_3_alg».proof.Proof.Gen.KernelIdeal.Frame
import proofs.«415113_j9629316678064_3_alg».proof.Proof.Gen.ReferenceIdeal
import proofs.«415113_j9629316678064_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.SL.Sem
open Cert.KernelIdeal Cert.KernelIdeal.Gen
open Idealize.ShloMosaic.ValueIdx

-- V: the TensorCore's buffer contents when the region is entered
variable (V : (c : Dev nD) → (b : Ref sig .tc) → Buf (Elt Ideal) ((c : Thread nD τ).loc b)) (c : Dev nD)

/-! ## The two products at an index

Both the tile product of the body and the whole product of the specification are, at an index (row, column),
the sum over the contracted coordinate k of left[row, k] · right[k, column]: the contraction has one axis, so its
index set is the range of k, and on each operand one axis reads the output's coordinate and the other reads k. -/

/-- The body's dimension numbers: a [10000,128] tile times the [128,64] weights. -/
abbrev DK := dot_S10000x128_S128x64_S10000x64_1_0_0_1_n_n
/-- The specification's dimension numbers: the [100000,128] array times the [128,64] weights. -/
abbrev DR := Cert.ReferenceIdeal.dot_S100000x128_S128x64_S100000x64_1_0_0_1_n_n

/-- The tile's left operand reads the output's row on its row axis. -/
theorem lhsK_0 (j : S10000x64.Idx) (k : DK.contr.Idx) : (DK.lhsIdx j k 0).val = (j 0).val := by
  unfold DotDims.lhsIdx
  rw [dif_neg (show ¬(0 : Fin S10000x128.rank) ∈ DK.lhsBatch by decide),
      dif_pos (show (0 : Fin S10000x128.rank) ∈ DK.lhsNonContracting by decide)]
  rfl
/-- … and the contracted coordinate on its column axis. -/
theorem lhsK_1 (j : S10000x64.Idx) (k : DK.contr.Idx) : (DK.lhsIdx j k 1).val = (k ⟨0, by decide⟩).val :=
  DK.lhsIdx_val_of_single (cl := 1) rfl j k
/-- The tile's right operand reads the contracted coordinate on its row axis. -/
theorem rhsK_0 (j : S10000x64.Idx) (k : DK.contr.Idx) : (DK.rhsIdx j k 0).val = (k ⟨0, by decide⟩).val :=
  DK.rhsIdx_val_of_single (cr := 0) rfl j k
/-- … and the output's column on its column axis. -/
theorem rhsK_1 (j : S10000x64.Idx) (k : DK.contr.Idx) : (DK.rhsIdx j k 1).val = (j 1).val := by
  unfold DotDims.rhsIdx
  rw [dif_neg (show ¬(1 : Fin S128x64.rank) ∈ DK.rhsBatch by decide),
      dif_pos (show (1 : Fin S128x64.rank) ∈ DK.rhsNonContracting by decide)]
  rfl

/-- The same four facts for the whole-array product. -/
theorem lhsR_0 (j : Cert.ReferenceIdeal.S100000x64.Idx) (k : DR.contr.Idx) : (DR.lhsIdx j k 0).val = (j 0).val := by
  unfold DotDims.lhsIdx
  rw [dif_neg (show ¬(0 : Fin Cert.ReferenceIdeal.S100000x128.rank) ∈ DR.lhsBatch by decide),
      dif_pos (show (0 : Fin Cert.ReferenceIdeal.S100000x128.rank) ∈ DR.lhsNonContracting by decide)]
  rfl
theorem lhsR_1 (j : Cert.ReferenceIdeal.S100000x64.Idx) (k : DR.contr.Idx) : (DR.lhsIdx j k 1).val = (k ⟨0, by decide⟩).val :=
  DR.lhsIdx_val_of_single (cl := 1) rfl j k
theorem rhsR_0 (j : Cert.ReferenceIdeal.S100000x64.Idx) (k : DR.contr.Idx) : (DR.rhsIdx j k 0).val = (k ⟨0, by decide⟩).val :=
  DR.rhsIdx_val_of_single (cr := 0) rfl j k
theorem rhsR_1 (j : Cert.ReferenceIdeal.S100000x64.Idx) (k : DR.contr.Idx) : (DR.rhsIdx j k 1).val = (j 1).val := by
  unfold DotDims.rhsIdx
  rw [dif_neg (show ¬(1 : Fin Cert.ReferenceIdeal.S128x64.rank) ∈ DR.rhsBatch by decide),
      dif_pos (show (1 : Fin Cert.ReferenceIdeal.S128x64.rank) ∈ DR.rhsNonContracting by decide)]
  rfl

/-- The body's payload at (p, q): the rounding to bf16 is the identity on the extended reals and the accumulator is
    zero, so it is the plain sum of products over the 128 input features. -/
theorem pay_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  refine (Ideal.matmul_constant_zero_apply DK none _ _ (ix2 p q)).trans ?_
  rw [← Equiv.sum_comp (contrEquiv1 DK 128 rfl rfl).symm]
  refine Finset.sum_congr rfl fun k _ => ?_
  have ck := contrEquiv1_symm_val DK 128 rfl rfl k
  have hl : DK.lhsIdx (ix2 p q) ((contrEquiv1 DK 128 rfl rfl).symm k) = ix2 p k := by
    funext a; apply Fin.ext
    match a with
    | ⟨0, _⟩ => exact lhsK_0 _ _
    | ⟨1, _⟩ => exact (lhsK_1 _ _).trans ck
  have hr : DK.rhsIdx (ix2 p q) ((contrEquiv1 DK 128 rfl rfl).symm k) = ix2 k q := by
    funext a; apply Fin.ext
    match a with
    | ⟨0, _⟩ => exact (rhsK_0 _ _).trans ck
    | ⟨1, _⟩ => exact rhsK_1 _ _
  rw [hl, hr]
  rfl

/-- The whole product at (n, q): the same sum over the whole arrays. -/
theorem dense1_apply (X : FVec Ideal Cert.ReferenceIdeal.S100000x128 .f32) (W : FVec Ideal Cert.ReferenceIdeal.S128x64 .f32)
    (n : Fin 100000) (q : Fin 64) :
    Cert.Spec.dense1 X W (ix2 n q) = ∑ k : Fin 128, X (ix2 n k) * W (ix2 k q) := by
  unfold Cert.Spec.dense1
  refine (Ideal.dotGeneral_apply DR none _ X W (ix2 n q)).trans ?_
  rw [← Equiv.sum_comp (contrEquiv1 DR 128 rfl rfl).symm]
  refine Finset.sum_congr rfl fun k _ => ?_
  have ck := contrEquiv1_symm_val DR 128 rfl rfl k
  have hl : DR.lhsIdx (ix2 n q) ((contrEquiv1 DR 128 rfl rfl).symm k) = ix2 n k := by
    funext a; apply Fin.ext
    match a with
    | ⟨0, _⟩ => exact lhsR_0 _ _
    | ⟨1, _⟩ => exact (lhsR_1 _ _).trans ck
  have hr : DR.rhsIdx (ix2 n q) ((contrEquiv1 DR 128 rfl rfl).symm k) = ix2 k q := by
    funext a; apply Fin.ext
    match a with
    | ⟨0, _⟩ => exact (rhsR_0 _ _).trans ck
    | ⟨1, _⟩ => exact rhsR_1 _ _
  rw [hl, hr]

/-! ## What the body leaves, over any two blocks -/

theorem hz : (![0, 0] : Fin 2 → Nat) = fun _ => 0 := funext fun a => by fin_cases a <;> rfl

/-- The body's one store covers the whole output buffer and its loads read the whole input buffers, so the buffer
    ends holding the payload: at (p, q) the sum over k of x0[p,k]·x1[k,q]. -/
theorem out_apply (x0 : Vec Ideal S10000x128 .f32) (x1 : Vec Ideal S128x64 .f32) (p : Fin 10000) (q : Fin 64) :
    out0_2 x0 x1 (ix2 p q) = ∑ k : Fin 128, x0 (ix2 p k) * x1 (ix2 k q) := by
  unfold out0_2
  rw [View.canon_unit_zero hz]
  simp only [View.ld_unit_zero (S := S10000x128) hz, View.ld_unit_zero (S := S128x64) hz]
  exact pay_apply x0 x1 p q

/-! ## The blocks of the windows at a grid point -/

/-- The index maps over the ten grid points: the row tile's block index is the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of tile t is row 10000·t + p of the whole array. -/
def row (t : Fin cfg0.N) (p : Fin 10000) : Fin 100000 :=
  ⟨10000 * t.val + p.val, by have ht : t.val < 10 := t.isLt; omega⟩

/-- Entry (p, k) of the left operand's tile t is entry (10000·t + p, k) of X. -/
theorem xblk_apply (t : Fin cfg0.N) (p : Fin 10000) (k : Fin 128) :
    iblk0 V c 0 t (ix2 p k) = V c main_arg0 (ix2 (row t p) k) := by
  obtain ⟨e0, e1, -⟩ := idx_facts t
  show V c main_arg0 (((cfg0.win 0).blk t).view.emb (ix2 p k)) = V c main_arg0 (ix2 (row t p) k)
  refine congrArg _ ?_
  funext a; apply Fin.ext
  match a with
  | ⟨0, _⟩ => show win0_0.index t (0 : Fin 2) * 10000 + 1 * p.val = 10000 * t.val + p.val; omega
  | ⟨1, _⟩ => show win0_0.index t (1 : Fin 2) * 128 + 1 * k.val = k.val; omega

/-- The right operand's block is the whole of W₁ at every point. -/
theorem wblk_apply (t : Fin cfg0.N) (k : Fin 128) (q : Fin 64) :
    iblk0 V c 1 t (ix2 k q) = V c main_arg3 (ix2 k q) := by
  obtain ⟨-, -, e2, e3, -⟩ := idx_facts t
  show V c main_arg3 (((cfg0.win 1).blk t).view.emb (ix2 k q)) = V c main_arg3 (ix2 k q)
  refine congrArg _ ?_
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- Entry (p, q) of the output's block t sits at (10000·t + p, q) of the product array. -/
theorem oblk_emb (t : Fin cfg0.N) (p : Fin 10000) (q : Fin 64) :
    ((cfg0.win 2).blk t).view.emb (ix2 p q) = ix2 (row t p) q := by
  obtain ⟨-, -, -, -, e4, e5⟩ := idx_facts t
  funext a; apply Fin.ext
  match a with
  | ⟨0, _⟩ => show win0_2.index t (0 : Fin 2) * 10000 + 1 * p.val = 10000 * t.val + p.val; omega
  | ⟨1, _⟩ => show win0_2.index t (1 : Fin 2) * 64 + 1 * q.val = q.val; omega

/-! ## What each point writes back, and the whole array -/

/-- What point t writes back is block t of the whole product X·W₁. -/
theorem flushed_eq (t : Fin cfg0.N) :
    (dat0 (F := Ideal) V c).flushed 2 t
      = ((cfg0.win 2).blk t).view.read (Elt Ideal) (Cert.Spec.dense1 (V c main_arg0) (V c main_arg3)) := by
  show (cfg0.win 2).cut (grid0.coords t) ((dat0 V c).after 2 t) = _
  rw [after0_2]
  funext j
  obtain ⟨p, q, rfl⟩ : ∃ (p : Fin 10000) (q : Fin 64), j = ix2 p q := ⟨j 0, j 1, eq_ix2 j⟩
  have hx : win0_2.xinj (grid0.coords t) (ix2 p q) = ix2 p q :=
    funext fun a => by match a with | ⟨0, _⟩ => rfl | ⟨1, _⟩ => rfl
  show out0_2 (iblk0 V c 0 t) (iblk0 V c 1 t) (win0_2.xinj (grid0.coords t) (ix2 p q))
    = Cert.Spec.dense1 (V c main_arg0) (V c main_arg3) (((cfg0.win 2).blk t).view.emb (ix2 p q))
  rw [hx, oblk_emb]
  refine (out_apply (iblk0 V c 0 t) (iblk0 V c 1 t) p q).trans ?_
  refine ((dense1_apply (V c main_arg0) (V c main_arg3) (row t p) q).trans ?_).symm
  refine Finset.sum_congr rfl fun k _ => ?_
  rw [xblk_apply V c t p k, wblk_apply V c t k q]

/-- An index of the product array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- The ten row blocks cover the array: row r lies in block r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by show (i 0).val / 10000 < 10; omega⟩
  obtain ⟨-, -, -, -, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the product array holds X·W₁ of the two arrays the region was entered with. -/
theorem value : (dat0 (F := Ideal) V c).arrAt 2 cfg0.N
    = (Cert.Spec.dense1 (V c main_arg0) (V c main_arg3) : Cert.ReferenceIdeal.S100000x64.Idx → EReal) :=
  (dat0 (F := Ideal) V c).arrAt_eq_of_cover 2 (Cert.Spec.dense1 (V c main_arg0) (V c main_arg3))
    (fun t _ => flushed_eq V c t) cover

end Cert.KernelIdeal.Reg0

end
-- ==== Proof.Reg1.lean ====
/- The first layer's per-node combine, tile by tile: max(agg + s ⊙ XW + b, 0) is computed entry by entry, so each row
   tile of the result depends on the same row tile of agg, XW and s and on the whole bias row. -/
import proofs.«415113_j9629316678064_3_alg».proof.Proof.Gen.KernelIdeal.Frame
import proofs.«415113_j9629316678064_3_alg».proof.Proof.Gen.ReferenceIdeal
import proofs.«415113_j9629316678064_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.SL.Sem
open Cert.KernelIdeal Cert.KernelIdeal.Gen

open Idealize.ShloMosaic.ValueIdx

-- V: the TensorCore's buffer contents when the region is entered
variable (V : (c : Dev nD) → (b : Ref sig .tc) → Buf (Elt Ideal) ((c : Thread nD τ).loc b)) (c : Dev nD)

/-! ## One tile's arithmetic, entry by entry -/

/-- A column [a,1] spread over b columns reads, at (p, j), the column's entry of row p. -/
theorem bcastCol_apply {α : Type} {a b : ℕ} (v : (⟨2, ![a, 1]⟩ : Shape).Idx → α) (h : (⟨2, ![a, 1]⟩ : Shape).Broadcasts ⟨2, ![a, b]⟩)
    (p : Fin a) (j : Fin b) : broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-- The tile's stored value at (p, q): max(agg[p,q] + s[p,0]·xw[p,q] + b[q], 0), the zero kept as the word it is printed as. -/
theorem pay_apply (x0 x1 : Vec Ideal S10000x64 .f32) (x2 : Vec Ideal S10000x1 .f32) (x3 : Vec Ideal S64 .f32)
    (p : Fin 10000) (q : Fin 64) :
    (k1_pay1 (F := Ideal) x0 x2 x1 x3 : S10000x64.Idx → EReal) (ix2 p q)
      = max ((x0 (ix2 p q) + x2 (ix2 p (0 : Fin 1)) * x1 (ix2 p q)) + x3 (ix1 q)) (Ideal.ofBits .f32 0x00000000#32) := by
  unfold k1_pay1
  simp only [shapeCast_self]
  rw [maximumf_apply, addf_apply, addf_apply, mulf_apply, bcastCol_apply, broadcastTo_1b_ab_apply, shapeCast_a_1a_apply,
    broadcast_apply]
  rfl

/-- The whole-array combine before the ramp, at (n, q): agg[n,q] + s[n,0]·xw[n,q] + b[q], the same association. -/
theorem combine_apply (A X : FVec Ideal Cert.ReferenceIdeal.S100000x64 .f32) (S : FVec Ideal Cert.ReferenceIdeal.S100000x1 .f32)
    (B : FVec Ideal Cert.ReferenceIdeal.S64 .f32) (n : Fin 100000) (q : Fin 64) :
    (Cert.Spec.combine A X S B : Cert.ReferenceIdeal.S100000x64.Idx → EReal) (ix2 n q)
      = (A (ix2 n q) + S (ix2 n (0 : Fin 1)) * X (ix2 n q)) + B (ix1 q) := by
  unfold Cert.Spec.combine
  rw [addf_apply, addf_apply, mulf_apply]
  rw [broadcastInDim_apply _ _ S (ix2 n q) (ix2 n (0 : Fin 1)) (fun a => by
        match a with
        | ⟨0, _⟩ => rfl
        | ⟨1, _⟩ => rfl)]
  rw [broadcastInDim_apply _ _ _ (ix2 n q) (ix2 (0 : Fin 1) q) (fun a => by
        match a with
        | ⟨0, _⟩ => rfl
        | ⟨1, _⟩ => rfl)]
  rw [broadcastInDim_apply _ _ B (ix2 (0 : Fin 1) q) (ix1 q) (fun a => by
        match a with
        | ⟨0, _⟩ => rfl)]

/-- With the ramp: the maximum of that entry and the scalar zero spread over the array (the same word as the tile's). -/
theorem combineRelu_apply (A X : FVec Ideal Cert.ReferenceIdeal.S100000x64 .f32) (S : FVec Ideal Cert.ReferenceIdeal.S100000x1 .f32)
    (B : FVec Ideal Cert.ReferenceIdeal.S64 .f32) (n : Fin 100000) (q : Fin 64) :
    (Cert.Spec.combineRelu A X S B : Cert.ReferenceIdeal.S100000x64.Idx → EReal) (ix2 n q)
      = max ((A (ix2 n q) + S (ix2 n (0 : Fin 1)) * X (ix2 n q)) + B (ix1 q)) (Ideal.ofBits .f32 0x00000000#32) := by
  unfold Cert.Spec.combineRelu
  rw [maximumf_apply, combine_apply]
  rw [broadcastInDim_apply _ _ (constant (F := Ideal) Cert.ReferenceIdeal.S_ .f32 0x00000000#32) (ix2 n q) ix0 (fun a => a.elim0)]
  rw [constant_apply]

theorem hz2 : (![0, 0] : Fin 2 → Nat) = fun _ => 0 := funext fun a => by fin_cases a <;> rfl
theorem hz1 : (![0] : Fin 1 → Nat) = fun _ => 0 := funext fun a => by fin_cases a <;> rfl

/-- The body's one store fills the whole output tile with its payload of the four loaded tiles. -/
theorem out_eq (x0 x1 : Vec Ideal S10000x64 .f32) (x2 : Vec Ideal S10000x1 .f32) (x3 : Vec Ideal S64 .f32) :
    out1_4 (F := Ideal) x0 x1 x2 x3 = k1_pay1 (F := Ideal) x0 x2 x1 x3 := by
  unfold out1_4
  rw [View.canon_unit_zero hz2]
  simp only [View.ld_unit_zero (S := S10000x64) hz2, View.ld_unit_zero (S := S10000x1) hz2, View.ld_unit_zero (S := S64) hz1]

/-- If the four loaded tiles are rows r(p) of the arrays A, X, S and the whole of B, the output tile's entry (p, q) is the
    whole-array value at (r(p), q). -/
theorem tile_eq (x0 x1 : Vec Ideal S10000x64 .f32) (x2 : Vec Ideal S10000x1 .f32) (x3 : Vec Ideal S64 .f32)
    (A X : FVec Ideal Cert.ReferenceIdeal.S100000x64 .f32) (S : FVec Ideal Cert.ReferenceIdeal.S100000x1 .f32)
    (B : FVec Ideal Cert.ReferenceIdeal.S64 .f32) (r : Fin 10000 → Fin 100000)
    (h0 : ∀ p q, x0 (ix2 p q) = A (ix2 (r p) q)) (h1 : ∀ p q, x1 (ix2 p q) = X (ix2 (r p) q))
    (h2 : ∀ p, x2 (ix2 p (0 : Fin 1)) = S (ix2 (r p) (0 : Fin 1))) (h3 : ∀ q, x3 (ix1 q) = B (ix1 q))
    (p : Fin 10000) (q : Fin 64) :
    (out1_4 (F := Ideal) x0 x1 x2 x3 : S10000x64.Idx → EReal) (ix2 p q)
      = (Cert.Spec.combineRelu A X S B : Cert.ReferenceIdeal.S100000x64.Idx → EReal) (ix2 (r p) q) := by
  rw [out_eq, pay_apply, combineRelu_apply, h0, h1, h2, h3]

/-! ## The tiles as rows of the arrays -/

/-- The printed index maps over the ten grid points: windows 0, 1, 2, 4 are at row tile t, column tile 0; the bias
    window is at block 0 throughout. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row p of tile t is row 10000·t + p of the array. -/
def row (t : Fin cfg1.N) (p : Fin 10000) : Fin 100000 :=
  ⟨t.val * 10000 + p.val, by have ht : t.val < 10 := t.isLt; have := p.isLt; omega⟩

/-- Tile t of the neighbour sums. -/
theorem blk0_apply (t : Fin cfg1.N) (p : Fin 10000) (q : Fin 64) :
    (iblk1 V c 0 t : Vec Ideal S10000x64 .f32) (ix2 p q) = (V c main_v41 : Cert.ReferenceIdeal.S100000x64.Idx → EReal) (ix2 (row t p) q) := by
  obtain ⟨e0, e1, -⟩ := idx_facts t
  unfold iblk1
  rw [View.read_apply]
  show V c main_v41 _ = V c main_v41 _
  congr 1
  funext a
  apply Fin.ext
  match a with
  | ⟨0, _⟩ => show win1_0.index t 0 * 10000 + 1 * p.val = t.val * 10000 + p.val; rw [e0]; omega
  | ⟨1, _⟩ => show win1_0.index t 1 * 64 + 1 * q.val = q.val; rw [e1]; omega

/-- Tile t of the feature product. -/
theorem blk1_apply (t : Fin cfg1.N) (p : Fin 10000) (q : Fin 64) :
    (iblk1 V c 1 t : Vec Ideal S10000x64 .f32) (ix2 p q) = (V c main_v28 : Cert.ReferenceIdeal.S100000x64.Idx → EReal) (ix2 (row t p) q) := by
  obtain ⟨-, -, e0, e1, -⟩ := idx_facts t
  unfold iblk1
  rw [View.read_apply]
  show V c main_v28 _ = V c main_v28 _
  congr 1
  funext a
  apply Fin.ext
  match a with
  | ⟨0, _⟩ => show win1_1.index t 0 * 10000 + 1 * p.val = t.val * 10000 + p.val; rw [e0]; omega
  | ⟨1, _⟩ => show win1_1.index t 1 * 64 + 1 * q.val = q.val; rw [e1]; omega

/-- Tile t of the per-node scale column. -/
theorem blk2_apply (t : Fin cfg1.N) (p : Fin 10000) :
    (iblk1 V c 2 t : Vec Ideal S10000x1 .f32) (ix2 p (0 : Fin 1)) = (V c main_v27 : Cert.ReferenceIdeal.S100000x1.Idx → EReal) (ix2 (row t p) (0 : Fin 1)) := by
  obtain ⟨-, -, -, -, e0, e1, -⟩ := idx_facts t
  unfold iblk1
  rw [View.read_apply]
  show V c main_v27 _ = V c main_v27 _
  congr 1
  funext a
  apply Fin.ext
  match a with
  | ⟨0, _⟩ => show win1_2.index t 0 * 10000 + 1 * p.val = t.val * 10000 + p.val; rw [e0]; omega
  | ⟨1, _⟩ => show win1_2.index t 1 * 1 + 1 * 0 = 0; rw [e1]

/-- The bias window's block is the whole bias row at every point. -/
theorem blk3_apply (t : Fin cfg1.N) (q : Fin 64) :
    (iblk1 V c 3 t : Vec Ideal S64 .f32) (ix1 q) = (V c main_arg4 : Cert.ReferenceIdeal.S64.Idx → EReal) (ix1 q) := by
  obtain ⟨-, -, -, -, -, -, e0, -⟩ := idx_facts t
  unfold iblk1
  rw [View.read_apply]
  show V c main_arg4 _ = V c main_arg4 _
  congr 1
  funext a
  apply Fin.ext
  match a with
  | ⟨0, _⟩ => show win1_3.index t 0 * 64 + 1 * q.val = q.val; rw [e0]; omega

/-! ## From the tiles to the array -/

/-- What point t writes back is tile t of the whole-array value of the arrays the region was entered with. -/
theorem flushed_eq (t : Fin cfg1.N) :
    (dat1 (F := Ideal) V c).flushed 4 t = ((cfg1.win 4).blk t).view.read (Elt Ideal)
      (Cert.Spec.combineRelu (V c main_v41) (V c main_v28) (V c main_v27) (V c main_arg4)) := by
  show (cfg1.win 4).cut (grid1.coords t) ((dat1 V c).after 4 t) = _
  rw [after1_4]
  obtain ⟨-, -, -, -, -, -, -, e0, e1⟩ := idx_facts t
  funext j
  obtain ⟨p, q, rfl⟩ : ∃ (p : Fin 10000) (q : Fin 64), j = ix2 p q := ⟨j 0, j 1, eq_ix2 j⟩
  have hemb : ((cfg1.win 4).blk t).view.emb (ix2 p q) = ix2 (row t p) q := by
    funext a
    apply Fin.ext
    match a with
    | ⟨0, _⟩ => show win1_4.index t 0 * 10000 + 1 * p.val = t.val * 10000 + p.val; rw [e0]; omega
    | ⟨1, _⟩ => show win1_4.index t 1 * 64 + 1 * q.val = q.val; rw [e1]; omega
  rw [View.read_apply]
  show (out1_4 (F := Ideal) (iblk1 V c 0 t) (iblk1 V c 1 t) (iblk1 V c 2 t) (iblk1 V c 3 t) : S10000x64.Idx → EReal) (ix2 p q)
    = (Cert.Spec.combineRelu (V c main_v41) (V c main_v28) (V c main_v27) (V c main_arg4) : Cert.ReferenceIdeal.S100000x64.Idx → EReal)
        (((cfg1.win 4).blk t).view.emb (ix2 p q))
  rw [hemb]
  exact tile_eq (iblk1 V c 0 t) (iblk1 V c 1 t) (iblk1 V c 2 t) (iblk1 V c 3 t)
    (V c main_v41) (V c main_v28) (V c main_v27) (V c main_arg4) (row t)
    (blk0_apply V c t) (blk1_apply V c t) (blk2_apply V c t) (blk3_apply V c t) p q

/-- Row n of the output lies in the tile of point n / 10000. -/
theorem cover (i : Cert.ReferenceIdeal.S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, -, e0, e1⟩ := idx_facts t
  have ht : t.val = (i 0).val / 10000 := rfl
  refine ⟨t, flush1_4 t, ?_⟩
  show i ∈ ((View.whole main_v42).slice (win1_4.rect t)).set
  rw [View.set_slice_whole, Rect.mem_set_unit]
  intro a
  match a with
  | ⟨0, _⟩ => show win1_4.index t 0 * 10000 ≤ (i 0).val ∧ (i 0).val < win1_4.index t 0 * 10000 + 10000; rw [e0, ht]; omega
  | ⟨1, _⟩ => show win1_4.index t 1 * 64 ≤ (i 1).val ∧ (i 1).val < win1_4.index t 1 * 64 + 64; rw [e1]; omega

/-- After the region the output array holds max(agg + s ⊙ XW + b, 0) of the four arrays the region was entered with. -/
theorem value : (dat1 (F := Ideal) V c).arrAt 4 cfg1.N
    = (Cert.Spec.combineRelu (V c main_v41) (V c main_v28) (V c main_v27) (V c main_arg4) : Cert.ReferenceIdeal.S100000x64.Idx → EReal) :=
  (dat1 (F := Ideal) V c).arrAt_eq_of_cover 4 _ (fun t _ => flushed_eq V c t) (cover)

end Cert.KernelIdeal.Reg1

end
-- ==== Proof.Reg2.lean ====
/- The second feature transform, tile by tile: the ten row tiles of H·W₂ are the ten row blocks of the whole product. -/
import proofs.«415113_j9629316678064_3_alg».proof.Proof.Gen.KernelIdeal.Frame
import proofs.«415113_j9629316678064_3_alg».proof.Proof.Gen.ReferenceIdeal
import proofs.«415113_j9629316678064_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.SL.Sem
open Cert.KernelIdeal Cert.KernelIdeal.Gen
open Idealize.ShloMosaic.ValueIdx

-- V: the TensorCore's buffer contents when the region is entered
variable (V : (c : Dev nD) → (b : Ref sig .tc) → Buf (Elt Ideal) ((c : Thread nD τ).loc b)) (c : Dev nD)

/-! ## The two products at an index

The tile product of the body and the whole product of the specification are both, at (row, column), the sum over the
contracted coordinate k of left[row, k] · right[k, column]. The contraction has a single axis of extent 64, so a
contraction index is its one coordinate; the left operand reads the output's row and k, the right operand k and the
output's column. -/

/-- The body's dimension numbers: a [10000,64] tile of H times the [64,64] weights. -/
abbrev DK := dot_S10000x64_S64x64_S10000x64_1_0_0_1_n_n
/-- The specification's dimension numbers: the [100000,64] array H times the [64,64] weights. -/
abbrev DR := Cert.ReferenceIdeal.dot_S100000x64_S64x64_S100000x64_1_0_0_1_n_n

/-- In the tile product the left operand's row axis reads the output's row. -/
theorem lhsK_0 (j : S10000x64.Idx) (k : DK.contr.Idx) : (DK.lhsIdx j k 0).val = (j 0).val := by
  unfold DotDims.lhsIdx
  rw [dif_neg (show ¬(0 : Fin S10000x64.rank) ∈ DK.lhsBatch by decide),
      dif_pos (show (0 : Fin S10000x64.rank) ∈ DK.lhsNonContracting by decide)]
  rfl
/-- Its column axis reads the contracted coordinate. -/
theorem lhsK_1 (j : S10000x64.Idx) (k : DK.contr.Idx) : (DK.lhsIdx j k 1).val = (k ⟨0, by decide⟩).val :=
  DK.lhsIdx_val_of_single (cl := 1) rfl j k
/-- The right operand's row axis reads the contracted coordinate. -/
theorem rhsK_0 (j : S10000x64.Idx) (k : DK.contr.Idx) : (DK.rhsIdx j k 0).val = (k ⟨0, by decide⟩).val :=
  DK.rhsIdx_val_of_single (cr := 0) rfl j k
/-- Its column axis reads the output's column. -/
theorem rhsK_1 (j : S10000x64.Idx) (k : DK.contr.Idx) : (DK.rhsIdx j k 1).val = (j 1).val := by
  unfold DotDims.rhsIdx
  rw [dif_neg (show ¬(1 : Fin S64x64.rank) ∈ DK.rhsBatch by decide),
      dif_pos (show (1 : Fin S64x64.rank) ∈ DK.rhsNonContracting by decide)]
  rfl

/-- The same four readings in the whole-array product. -/
theorem lhsR_0 (j : Cert.ReferenceIdeal.S100000x64.Idx) (k : DR.contr.Idx) : (DR.lhsIdx j k 0).val = (j 0).val := by
  unfold DotDims.lhsIdx
  rw [dif_neg (show ¬(0 : Fin Cert.ReferenceIdeal.S100000x64.rank) ∈ DR.lhsBatch by decide),
      dif_pos (show (0 : Fin Cert.ReferenceIdeal.S100000x64.rank) ∈ DR.lhsNonContracting by decide)]
  rfl
theorem lhsR_1 (j : Cert.ReferenceIdeal.S100000x64.Idx) (k : DR.contr.Idx) : (DR.lhsIdx j k 1).val = (k ⟨0, by decide⟩).val :=
  DR.lhsIdx_val_of_single (cl := 1) rfl j k
theorem rhsR_0 (j : Cert.ReferenceIdeal.S100000x64.Idx) (k : DR.contr.Idx) : (DR.rhsIdx j k 0).val = (k ⟨0, by decide⟩).val :=
  DR.rhsIdx_val_of_single (cr := 0) rfl j k
theorem rhsR_1 (j : Cert.ReferenceIdeal.S100000x64.Idx) (k : DR.contr.Idx) : (DR.rhsIdx j k 1).val = (j 1).val := by
  unfold DotDims.rhsIdx
  rw [dif_neg (show ¬(1 : Fin Cert.ReferenceIdeal.S64x64.rank) ∈ DR.rhsBatch by decide),
      dif_pos (show (1 : Fin Cert.ReferenceIdeal.S64x64.rank) ∈ DR.rhsNonContracting by decide)]
  rfl

/-- The body's payload at (p, q). The left block is first cast to its own shape, which changes nothing; the rounding
    of both blocks to bf16 is the identity on the extended reals; the accumulator is zero. What is left is the sum of
    products over the 64 hidden features. -/
theorem pay_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  refine (Ideal.matmul_constant_zero_apply DK none _ _ (ix2 p q)).trans ?_
  rw [← Equiv.sum_comp (contrEquiv1 DK 64 rfl rfl).symm]
  refine Finset.sum_congr rfl fun k _ => ?_
  have ck := contrEquiv1_symm_val DK 64 rfl rfl k
  have hl : DK.lhsIdx (ix2 p q) ((contrEquiv1 DK 64 rfl rfl).symm k) = ix2 p k := by
    funext a; apply Fin.ext
    match a with
    | ⟨0, _⟩ => exact lhsK_0 _ _
    | ⟨1, _⟩ => exact (lhsK_1 _ _).trans ck
  have hr : DK.rhsIdx (ix2 p q) ((contrEquiv1 DK 64 rfl rfl).symm k) = ix2 k q := by
    funext a; apply Fin.ext
    match a with
    | ⟨0, _⟩ => exact (rhsK_0 _ _).trans ck
    | ⟨1, _⟩ => exact rhsK_1 _ _
  rw [hl, hr, shapeCast_self]
  rfl

/-- The whole product at (n, q): the same sum over the whole arrays. -/
theorem dense2_apply (H : FVec Ideal Cert.ReferenceIdeal.S100000x64 .f32) (W : FVec Ideal Cert.ReferenceIdeal.S64x64 .f32)
    (n : Fin 100000) (q : Fin 64) :
    Cert.Spec.dense2 H W (ix2 n q) = ∑ k : Fin 64, H (ix2 n k) * W (ix2 k q) := by
  unfold Cert.Spec.dense2
  refine (Ideal.dotGeneral_apply DR none _ H W (ix2 n q)).trans ?_
  rw [← Equiv.sum_comp (contrEquiv1 DR 64 rfl rfl).symm]
  refine Finset.sum_congr rfl fun k _ => ?_
  have ck := contrEquiv1_symm_val DR 64 rfl rfl k
  have hl : DR.lhsIdx (ix2 n q) ((contrEquiv1 DR 64 rfl rfl).symm k) = ix2 n k := by
    funext a; apply Fin.ext
    match a with
    | ⟨0, _⟩ => exact lhsR_0 _ _
    | ⟨1, _⟩ => exact (lhsR_1 _ _).trans ck
  have hr : DR.rhsIdx (ix2 n q) ((contrEquiv1 DR 64 rfl rfl).symm k) = ix2 k q := by
    funext a; apply Fin.ext
    match a with
    | ⟨0, _⟩ => exact (rhsR_0 _ _).trans ck
    | ⟨1, _⟩ => exact rhsR_1 _ _
  rw [hl, hr]

/-! ## What the body leaves, over any two blocks -/

theorem hz : (![0, 0] : Fin 2 → Nat) = fun _ => 0 := funext fun a => by fin_cases a <;> rfl

/-- The body loads both input buffers whole and its one store fills the output buffer, so the buffer ends holding the
    payload: at (p, q) the sum over k of x0[p,k]·x1[k,q]. -/
theorem out_apply (x0 : Vec Ideal S10000x64 .f32) (x1 : Vec Ideal S64x64 .f32) (p : Fin 10000) (q : Fin 64) :
    out2_2 x0 x1 (ix2 p q) = ∑ k : Fin 64, x0 (ix2 p k) * x1 (ix2 k q) := by
  unfold out2_2
  rw [View.canon_unit_zero hz]
  simp only [View.ld_unit_zero (S := S10000x64) hz, View.ld_unit_zero (S := S64x64) hz]
  exact pay_apply x0 x1 p q

/-! ## The blocks of the windows at a grid point -/

/-- The index maps over the ten grid points: the two row-tiled windows have the point as their row-block index, and
    every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of tile t is row 10000·t + p of the whole array. -/
def row (t : Fin cfg2.N) (p : Fin 10000) : Fin 100000 :=
  ⟨10000 * t.val + p.val, by have ht : t.val < 10 := t.isLt; omega⟩

/-- Entry (p, k) of tile t of the left operand is entry (10000·t + p, k) of H. -/
theorem hblk_apply (t : Fin cfg2.N) (p : Fin 10000) (k : Fin 64) :
    iblk2 V c 0 t (ix2 p k) = V c main_v42 (ix2 (row t p) k) := by
  obtain ⟨e0, e1, -⟩ := idx_facts t
  show V c main_v42 (((cfg2.win 0).blk t).view.emb (ix2 p k)) = V c main_v42 (ix2 (row t p) k)
  refine congrArg _ ?_
  funext a; apply Fin.ext
  match a with
  | ⟨0, _⟩ => show win2_0.index t (0 : Fin 2) * 10000 + 1 * p.val = 10000 * t.val + p.val; omega
  | ⟨1, _⟩ => show win2_0.index t (1 : Fin 2) * 64 + 1 * k.val = k.val; omega

/-- The right operand's block is the whole of W₂ at every point. -/
theorem wblk_apply (t : Fin cfg2.N) (k : Fin 64) (q : Fin 64) :
    iblk2 V c 1 t (ix2 k q) = V c main_arg5 (ix2 k q) := by
  obtain ⟨-, -, e2, e3, -⟩ := idx_facts t
  show V c main_arg5 (((cfg2.win 1).blk t).view.emb (ix2 k q)) = V c main_arg5 (ix2 k q)
  refine congrArg _ ?_
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- Entry (p, q) of the output's block t sits at (10000·t + p, q) of the product array. -/
theorem oblk_emb (t : Fin cfg2.N) (p : Fin 10000) (q : Fin 64) :
    ((cfg2.win 2).blk t).view.emb (ix2 p q) = ix2 (row t p) q := by
  obtain ⟨-, -, -, -, e4, e5⟩ := idx_facts t
  funext a; apply Fin.ext
  match a with
  | ⟨0, _⟩ => show win2_2.index t (0 : Fin 2) * 10000 + 1 * p.val = 10000 * t.val + p.val; omega
  | ⟨1, _⟩ => show win2_2.index t (1 : Fin 2) * 64 + 1 * q.val = q.val; omega

/-! ## What each point writes back, and the whole array -/

/-- What point t writes back is block t of the whole product H·W₂. -/
theorem flushed_eq (t : Fin cfg2.N) :
    (dat2 (F := Ideal) V c).flushed 2 t
      = ((cfg2.win 2).blk t).view.read (Elt Ideal) (Cert.Spec.dense2 (V c main_v42) (V c main_arg5)) := by
  show (cfg2.win 2).cut (grid2.coords t) ((dat2 V c).after 2 t) = _
  rw [after2_2]
  funext j
  obtain ⟨p, q, rfl⟩ : ∃ (p : Fin 10000) (q : Fin 64), j = ix2 p q := ⟨j 0, j 1, eq_ix2 j⟩
  have hx : win2_2.xinj (grid2.coords t) (ix2 p q) = ix2 p q :=
    funext fun a => by match a with | ⟨0, _⟩ => rfl | ⟨1, _⟩ => rfl
  show out2_2 (iblk2 V c 0 t) (iblk2 V c 1 t) (win2_2.xinj (grid2.coords t) (ix2 p q))
    = Cert.Spec.dense2 (V c main_v42) (V c main_arg5) (((cfg2.win 2).blk t).view.emb (ix2 p q))
  rw [hx, oblk_emb]
  refine (out_apply (iblk2 V c 0 t) (iblk2 V c 1 t) p q).trans ?_
  refine ((dense2_apply (V c main_v42) (V c main_arg5) (row t p) q).trans ?_).symm
  refine Finset.sum_congr rfl fun k _ => ?_
  rw [hblk_apply V c t p k, wblk_apply V c t k q]

/-- An index of the product array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v43).slice (win2_2.rect t)).set ↔ _
  rw [View.set_slice_whole, Rect.mem_set_unit]
  exact Iff.rfl

/-- The ten row blocks cover the array: row r lies in block r / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 10000, by show (i 0).val / 10000 < 10; omega⟩
  obtain ⟨-, -, -, -, e4, e5⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region the product array holds H·W₂ of the two arrays the region was entered with. -/
theorem value : (dat2 (F := Ideal) V c).arrAt 2 cfg2.N
    = (Cert.Spec.dense2 (V c main_v42) (V c main_arg5) : Cert.ReferenceIdeal.S100000x64.Idx → EReal) :=
  (dat2 (F := Ideal) V c).arrAt_eq_of_cover 2 (Cert.Spec.dense2 (V c main_v42) (V c main_arg5))
    (fun t _ => flushed_eq V c t) cover

end Cert.KernelIdeal.Reg2

end
-- ==== Proof.Reg3.lean ====
/- The second layer's per-node combine, tile by tile: agg + s ⊙ XW + b entry by entry (no ramp). -/
import proofs.«415113_j9629316678064_3_alg».proof.Proof.Gen.KernelIdeal.Frame
import proofs.«415113_j9629316678064_3_alg».proof.Proof.Gen.ReferenceIdeal
import proofs.«415113_j9629316678064_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.SL.Sem
open Cert.KernelIdeal Cert.KernelIdeal.Gen

open Idealize.ShloMosaic.ValueIdx

-- V: the TensorCore's buffer contents when the region is entered
variable (V : (c : Dev nD) → (b : Ref sig .tc) → Buf (Elt Ideal) ((c : Thread nD τ).loc b)) (c : Dev nD)

/-! ## One tile's arithmetic, entry by entry -/

/-- A column [a,1] spread over b columns reads, at (p, j), the column's entry of row p. -/
theorem bcastCol_apply {α : Type} {a b : ℕ} (v : (⟨2, ![a, 1]⟩ : Shape).Idx → α) (h : (⟨2, ![a, 1]⟩ : Shape).Broadcasts ⟨2, ![a, b]⟩)
    (p : Fin a) (j : Fin b) : broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-- The tile's stored value at (p, q): agg[p,q] + s[p,0]·xw[p,q] + b[q]. -/
theorem pay_apply (x0 x1 : Vec Ideal S10000x64 .f32) (x2 : Vec Ideal S10000x1 .f32) (x3 : Vec Ideal S64 .f32)
    (p : Fin 10000) (q : Fin 64) :
    (k3_pay1 (F := Ideal) x0 x2 x1 x3 : S10000x64.Idx → EReal) (ix2 p q)
      = (x0 (ix2 p q) + x2 (ix2 p (0 : Fin 1)) * x1 (ix2 p q)) + x3 (ix1 q) := by
  unfold k3_pay1
  simp only [shapeCast_self]
  rw [addf_apply, addf_apply, mulf_apply, bcastCol_apply, broadcastTo_1b_ab_apply, shapeCast_a_1a_apply]

/-- The whole-array combine at (n, q): agg[n,q] + s[n,0]·xw[n,q] + b[q], the same association. -/
theorem combine_apply (A X : FVec Ideal Cert.ReferenceIdeal.S100000x64 .f32) (S : FVec Ideal Cert.ReferenceIdeal.S100000x1 .f32)
    (B : FVec Ideal Cert.ReferenceIdeal.S64 .f32) (n : Fin 100000) (q : Fin 64) :
    (Cert.Spec.combine A X S B : Cert.ReferenceIdeal.S100000x64.Idx → EReal) (ix2 n q)
      = (A (ix2 n q) + S (ix2 n (0 : Fin 1)) * X (ix2 n q)) + B (ix1 q) := by
  unfold Cert.Spec.combine
  rw [addf_apply, addf_apply, mulf_apply]
  rw [broadcastInDim_apply _ _ S (ix2 n q) (ix2 n (0 : Fin 1)) (fun a => by
        match a with
        | ⟨0, _⟩ => rfl
        | ⟨1, _⟩ => rfl)]
  rw [broadcastInDim_apply _ _ _ (ix2 n q) (ix2 (0 : Fin 1) q) (fun a => by
        match a with
        | ⟨0, _⟩ => rfl
        | ⟨1, _⟩ => rfl)]
  rw [broadcastInDim_apply _ _ B (ix2 (0 : Fin 1) q) (ix1 q) (fun a => by
        match a with
        | ⟨0, _⟩ => rfl)]

theorem hz2 : (![0, 0] : Fin 2 → Nat) = fun _ => 0 := funext fun a => by fin_cases a <;> rfl
theorem hz1 : (![0] : Fin 1 → Nat) = fun _ => 0 := funext fun a => by fin_cases a <;> rfl

/-- The body's one store fills the whole output tile with its payload of the four loaded tiles. -/
theorem out_eq (x0 x1 : Vec Ideal S10000x64 .f32) (x2 : Vec Ideal S10000x1 .f32) (x3 : Vec Ideal S64 .f32) :
    out3_4 (F := Ideal) x0 x1 x2 x3 = k3_pay1 (F := Ideal) x0 x2 x1 x3 := by
  unfold out3_4
  rw [View.canon_unit_zero hz2]
  simp only [View.ld_unit_zero (S := S10000x64) hz2, View.ld_unit_zero (S := S10000x1) hz2, View.ld_unit_zero (S := S64) hz1]

/-- If the four loaded tiles are rows r(p) of the arrays A, X, S and the whole of B, the output tile's entry (p, q) is the
    whole-array combine at (r(p), q). -/
theorem tile_eq (x0 x1 : Vec Ideal S10000x64 .f32) (x2 : Vec Ideal S10000x1 .f32) (x3 : Vec Ideal S64 .f32)
    (A X : FVec Ideal Cert.ReferenceIdeal.S100000x64 .f32) (S : FVec Ideal Cert.ReferenceIdeal.S100000x1 .f32)
    (B : FVec Ideal Cert.ReferenceIdeal.S64 .f32) (r : Fin 10000 → Fin 100000)
    (h0 : ∀ p q, x0 (ix2 p q) = A (ix2 (r p) q)) (h1 : ∀ p q, x1 (ix2 p q) = X (ix2 (r p) q))
    (h2 : ∀ p, x2 (ix2 p (0 : Fin 1)) = S (ix2 (r p) (0 : Fin 1))) (h3 : ∀ q, x3 (ix1 q) = B (ix1 q))
    (p : Fin 10000) (q : Fin 64) :
    (out3_4 (F := Ideal) x0 x1 x2 x3 : S10000x64.Idx → EReal) (ix2 p q)
      = (Cert.Spec.combine A X S B : Cert.ReferenceIdeal.S100000x64.Idx → EReal) (ix2 (r p) q) := by
  rw [out_eq, pay_apply, combine_apply, h0, h1, h2, h3]

/-! ## The tiles as rows of the arrays -/

/-- The printed index maps over the ten grid points: windows 0, 1, 2, 4 are at row tile t, column tile 0; the bias
    window is at block 0 throughout. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Row p of tile t is row 10000·t + p of the array. -/
def row (t : Fin cfg3.N) (p : Fin 10000) : Fin 100000 :=
  ⟨t.val * 10000 + p.val, by have ht : t.val < 10 := t.isLt; have := p.isLt; omega⟩

theorem blk0_apply (t : Fin cfg3.N) (p : Fin 10000) (q : Fin 64) :
    (iblk3 V c 0 t : Vec Ideal S10000x64 .f32) (ix2 p q) = (V c main_v56 : Cert.ReferenceIdeal.S100000x64.Idx → EReal) (ix2 (row t p) q) := by
  obtain ⟨e0, e1, -⟩ := idx_facts t
  unfold iblk3
  rw [View.read_apply]
  show V c main_v56 _ = V c main_v56 _
  congr 1
  funext a
  apply Fin.ext
  match a with
  | ⟨0, _⟩ => show win3_0.index t 0 * 10000 + 1 * p.val = t.val * 10000 + p.val; rw [e0]; omega
  | ⟨1, _⟩ => show win3_0.index t 1 * 64 + 1 * q.val = q.val; rw [e1]; omega

theorem blk1_apply (t : Fin cfg3.N) (p : Fin 10000) (q : Fin 64) :
    (iblk3 V c 1 t : Vec Ideal S10000x64 .f32) (ix2 p q) = (V c main_v43 : Cert.ReferenceIdeal.S100000x64.Idx → EReal) (ix2 (row t p) q) := by
  obtain ⟨-, -, e0, e1, -⟩ := idx_facts t
  unfold iblk3
  rw [View.read_apply]
  show V c main_v43 _ = V c main_v43 _
  congr 1
  funext a
  apply Fin.ext
  match a with
  | ⟨0, _⟩ => show win3_1.index t 0 * 10000 + 1 * p.val = t.val * 10000 + p.val; rw [e0]; omega
  | ⟨1, _⟩ => show win3_1.index t 1 * 64 + 1 * q.val = q.val; rw [e1]; omega

theorem blk2_apply (t : Fin cfg3.N) (p : Fin 10000) :
    (iblk3 V c 2 t : Vec Ideal S10000x1 .f32) (ix2 p (0 : Fin 1)) = (V c main_v27 : Cert.ReferenceIdeal.S100000x1.Idx → EReal) (ix2 (row t p) (0 : Fin 1)) := by
  obtain ⟨-, -, -, -, e0, e1, -⟩ := idx_facts t
  unfold iblk3
  rw [View.read_apply]
  show V c main_v27 _ = V c main_v27 _
  congr 1
  funext a
  apply Fin.ext
  match a with
  | ⟨0, _⟩ => show win3_2.index t 0 * 10000 + 1 * p.val = t.val * 10000 + p.val; rw [e0]; omega
  | ⟨1, _⟩ => show win3_2.index t 1 * 1 + 1 * 0 = 0; rw [e1]

theorem blk3_apply (t : Fin cfg3.N) (q : Fin 64) :
    (iblk3 V c 3 t : Vec Ideal S64 .f32) (ix1 q) = (V c main_arg6 : Cert.ReferenceIdeal.S64.Idx → EReal) (ix1 q) := by
  obtain ⟨-, -, -, -, -, -, e0, -⟩ := idx_facts t
  unfold iblk3
  rw [View.read_apply]
  show V c main_arg6 _ = V c main_arg6 _
  congr 1
  funext a
  apply Fin.ext
  match a with
  | ⟨0, _⟩ => show win3_3.index t 0 * 64 + 1 * q.val = q.val; rw [e0]; omega

/-! ## From the tiles to the array -/

/-- What point t writes back is tile t of the whole-array combine of the arrays the region was entered with. -/
theorem flushed_eq (t : Fin cfg3.N) :
    (dat3 (F := Ideal) V c).flushed 4 t = ((cfg3.win 4).blk t).view.read (Elt Ideal)
      (Cert.Spec.combine (V c main_v56) (V c main_v43) (V c main_v27) (V c main_arg6)) := by
  show (cfg3.win 4).cut (grid3.coords t) ((dat3 V c).after 4 t) = _
  rw [after3_4]
  obtain ⟨-, -, -, -, -, -, -, e0, e1⟩ := idx_facts t
  funext j
  obtain ⟨p, q, rfl⟩ : ∃ (p : Fin 10000) (q : Fin 64), j = ix2 p q := ⟨j 0, j 1, eq_ix2 j⟩
  have hemb : ((cfg3.win 4).blk t).view.emb (ix2 p q) = ix2 (row t p) q := by
    funext a
    apply Fin.ext
    match a with
    | ⟨0, _⟩ => show win3_4.index t 0 * 10000 + 1 * p.val = t.val * 10000 + p.val; rw [e0]; omega
    | ⟨1, _⟩ => show win3_4.index t 1 * 64 + 1 * q.val = q.val; rw [e1]; omega
  rw [View.read_apply]
  show (out3_4 (F := Ideal) (iblk3 V c 0 t) (iblk3 V c 1 t) (iblk3 V c 2 t) (iblk3 V c 3 t) : S10000x64.Idx → EReal) (ix2 p q)
    = (Cert.Spec.combine (V c main_v56) (V c main_v43) (V c main_v27) (V c main_arg6) : Cert.ReferenceIdeal.S100000x64.Idx → EReal)
        (((cfg3.win 4).blk t).view.emb (ix2 p q))
  rw [hemb]
  exact tile_eq (iblk3 V c 0 t) (iblk3 V c 1 t) (iblk3 V c 2 t) (iblk3 V c 3 t)
    (V c main_v56) (V c main_v43) (V c main_v27) (V c main_arg6) (row t)
    (blk0_apply V c t) (blk1_apply V c t) (blk2_apply V c t) (blk3_apply V c t) p q

/-- Row n of the output lies in the tile of point n / 10000. -/
theorem cover (i : Cert.ReferenceIdeal.S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, -, -, -, e0, e1⟩ := idx_facts t
  have ht : t.val = (i 0).val / 10000 := rfl
  refine ⟨t, flush3_4 t, ?_⟩
  show i ∈ ((View.whole main_v57).slice (win3_4.rect t)).set
  rw [View.set_slice_whole, Rect.mem_set_unit]
  intro a
  match a with
  | ⟨0, _⟩ => show win3_4.index t 0 * 10000 ≤ (i 0).val ∧ (i 0).val < win3_4.index t 0 * 10000 + 10000; rw [e0, ht]; omega
  | ⟨1, _⟩ => show win3_4.index t 1 * 64 ≤ (i 1).val ∧ (i 1).val < win3_4.index t 1 * 64 + 64; rw [e1]; omega

/-- After the region the output array holds agg + s ⊙ XW + b of the four arrays the region was entered with. -/
theorem value : (dat3 (F := Ideal) V c).arrAt 4 cfg3.N
    = (Cert.Spec.combine (V c main_v56) (V c main_v43) (V c main_v27) (V c main_arg6) : Cert.ReferenceIdeal.S100000x64.Idx → EReal) :=
  (dat3 (F := Ideal) V c).arrAt_eq_of_cover 4 _ (fun t _ => flushed_eq V c t) (cover)

end Cert.KernelIdeal.Reg3

end
-- ==== Proof.Reg4Pay.lean ====
/- The pooling body's arithmetic, entry by entry. One grid point holds a tile of 10000 graph ids (a column) and the
   matching 10000 node rows. The body forms the 0/1 indicator [ids[p] = g] as a [10000,128] array, multiplies its
   transpose with the node rows (contracting the node axis of both), and adds the product to the accumulator:
   entry (g, j) gains the sum of x[p, j] over the nodes p of the tile whose id is g. -/
import proofs.«415113_j9629316678064_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Idealize.ShloMosaic Idealize.ShloMosaic.ValueIdx Idealize.SL.Sem
open Cert.KernelIdeal Cert.KernelIdeal.Gen

/-- The product's dimension numbers, by a short name. -/
abbrev dotT : DotDims S10000x128 S10000x64 S128x64 := dot_S10000x128_S10000x64_S128x64_0_0_1_1_n_n

/-- The left operand is read at (node, graph): the contracted coordinate on axis 0, the result's row on axis 1. -/
theorem lhs_at (g : Fin 128) (j : Fin 64) (p : Fin 10000) :
    dotT.lhsIdx (ix2 g j) ((contrEquiv1 dotT 10000 rfl rfl).symm p) = ix2 p g := by
  have c2 := contrEquiv1_symm_val dotT 10000 rfl rfl p
  funext ax; apply Fin.ext
  match ax with
  | ⟨0, _⟩ => simp [DotDims.lhsIdx, dotT, dot_S10000x128_S10000x64_S128x64_0_0_1_1_n_n]; exact c2
  | ⟨1, _⟩ => simp [DotDims.lhsIdx, dotT, dot_S10000x128_S10000x64_S128x64_0_0_1_1_n_n]; rfl

/-- The right operand is read at (node, feature). -/
theorem rhs_at (g : Fin 128) (j : Fin 64) (p : Fin 10000) :
    dotT.rhsIdx (ix2 g j) ((contrEquiv1 dotT 10000 rfl rfl).symm p) = ix2 p j := by
  have c2 := contrEquiv1_symm_val dotT 10000 rfl rfl p
  funext ax; apply Fin.ext
  match ax with
  | ⟨0, _⟩ => simp [DotDims.rhsIdx, dotT, dot_S10000x128_S10000x64_S128x64_0_0_1_1_n_n]; exact c2
  | ⟨1, _⟩ => simp [DotDims.rhsIdx, dotT, dot_S10000x128_S10000x64_S128x64_0_0_1_1_n_n]; rfl

/-- A one-bit comparison result widened to 32 bits and converted: 1 when the two words are equal, else 0. -/
theorem ind_word (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by simp [IntOp.cmpi]
    rw [e]
    show (((1#32 : BitVec 32).toInt : ℝ) : EReal) = 1
    norm_num
  · rw [if_neg h]
    have hb : (a == b) = false := by simpa using h
    have e : (IntOp.cmpi .eq a b).setWidth 32 = 0#32 := by simp [IntOp.cmpi, hb]
    rw [e]
    show (((0#32 : BitVec 32).toInt : ℝ) : EReal) = 0
    norm_num

/-- The indicator array at (node p, graph g): 1 when node p's id is the word g, else 0. -/
theorem ind_apply (x0 : IVec S10000x1 32) (p : Fin 10000) (g : Fin 128) :
    (sitofp .f32 (extui 32 (cmpi .eq (broadcastTo S10000x128 x0 broadcasts_S10000x1_S10000x128)
        (iota .tc S10000x128 32 [1] iota_S10000x128_d1_w32)) natLt_1_32) : FVec Ideal S10000x128 .f32) (ix2 p g)
      = if x0 (ix2 p 0) = BitVec.ofNat 32 g.val then 1 else 0 := by
  rw [sitofp_apply, extui_apply]
  show FloatOps.sitofp (F := Ideal) .f32 ((IntOp.cmpi .eq (broadcastTo S10000x128 x0 broadcasts_S10000x1_S10000x128 (ix2 p g))
      (iota .tc S10000x128 32 [1] iota_S10000x128_d1_w32 (ix2 p g))).setWidth 32) = _
  rw [iota_single_apply,
    broadcastTo_apply x0 broadcasts_S10000x1_S10000x128 (ix2 p g) (ix2 p 0) (fun a => by
      match a with
      | ⟨0, _⟩ => rfl
      | ⟨1, _⟩ => rfl)]
  exact ind_word _ _

/-- The body's update at entry (g, j): the accumulator's entry plus the tile's rows whose id is g, summed at feature j. -/
theorem pay2_apply (x0 : Vec Ideal S10000x1 .i32) (x1 : Vec Ideal S10000x64 .f32) (acc : Vec Ideal S128x64 .f32)
    (g : Fin 128) (j : Fin 64) :
    k4_pay2 (F := Ideal) x0 x1 acc (ix2 g j)
      = acc (ix2 g j) + ∑ p : Fin 10000, (if x0 (ix2 p 0) = BitVec.ofNat 32 g.val then x1 (ix2 p j) else 0) := by
  unfold k4_pay2
  dsimp only
  simp only [shapeCast_self]
  rw [addf_apply]
  refine congrArg (acc (ix2 g j) + ·) ?_
  show FloatOps.matmul dotT none _ _ (constant S128x64 .f32 0x00000000#32) (ix2 g j) = _
  rw [Ideal.matmul_constant_zero_apply, ← Equiv.sum_comp (contrEquiv1 dotT 10000 rfl rfl).symm]
  refine Finset.sum_congr rfl fun p _ => ?_
  rw [lhs_at, rhs_at, truncf_apply, truncf_apply, ind_apply]
  by_cases h : x0 (ix2 p 0) = BitVec.ofNat 32 g.val
  · rw [if_pos h, if_pos h, one_mul]
  · rw [if_neg h, if_neg h, zero_mul]

end Cert.KernelIdeal.Reg4

end
-- ==== Proof.Reg4Spec.lean ====
/- The pooling sums as the scatter-add forms them, entry by entry. The scatter adds row n of the node features into
   row ids[n] of a zero [128,64] array, the id read as a signed integer and not clamped: an id outside 0…127 lands
   nowhere. So entry (g, j) of the result is the sum, over ALL 100000 nodes n, of h[n, j] where ids[n] is the word g
   and of 0 elsewhere. -/
import proofs.«415113_j9629316678064_3_alg».proof.Proof.Spec
import Idealize.ShloMosaic.PureOps.Ideal
import Idealize.ShloMosaic.PureOps.Ideal.Laws
import Idealize.ShloMosaic.Lib.ValueIdx

set_option maxRecDepth 16384

noncomputable section

namespace Cert.Spec.Pool

open Idealize.ShloMosaic Idealize.ShloMosaic.ValueIdx Idealize.SL.Sem
open Cert.ReferenceIdeal Cert.ReferenceIdeal.Facts₀ Cert.ReferenceIdeal.Facts

/-- Node n's contribution to entry (g, j): its feature j when its id is the word g, else nothing. -/
def term (ids : IVec S100000x1 32) (h : FVec Ideal S100000x64 .f32) (g : Fin 128) (j : Fin 64) (n : Fin 100000) : EReal :=
  if ids (ix2 n 0) = BitVec.ofNat 32 g.val then h (ix2 n j) else 0

/-- The per-graph sums, entry by entry: the contributions of all the nodes. -/
def pooled (ids : IVec S100000x1 32) (h : FVec Ideal S100000x64 .f32) : S128x64.Idx → EReal :=
  fun i => ∑ n : Fin 100000, term ids h (i 0) (i 1) n

/-- A 32-bit word read signed is the small natural g exactly when it is the word g. -/
theorem toInt_eq_iff (x : BitVec 32) (g : ℕ) (hg : g < 128) : x.toInt = (g : ℤ) ↔ x = BitVec.ofNat 32 g := by
  have hx := BitVec.toInt_eq_toNat_cond x
  have hlt := x.isLt
  constructor
  · intro h
    apply BitVec.eq_of_toNat_eq
    rw [BitVec.toNat_ofNat]
    by_cases hc : 2 * x.toNat < 2 ^ 32
    · rw [if_pos hc] at hx; omega
    · rw [if_neg hc] at hx; omega
  · rintro rfl
    rw [BitVec.toInt_eq_toNat_cond, BitVec.toNat_ofNat]
    have e : g % 2 ^ 32 = g := Nat.mod_eq_of_lt (by omega)
    rw [e, if_pos (by omega)]

/-! ## The sum tile by tile

The 100000 nodes are ten tiles of 10000 consecutive nodes; the whole sum is the tiles' sums added up. -/

/-- Tile s's contribution to entry (g, j): its 10000 nodes' contributions (nothing past the tenth tile). -/
def tileSum (ids : IVec S100000x1 32) (h : FVec Ideal S100000x64 .f32) (g : Fin 128) (j : Fin 64) (s : ℕ) : EReal :=
  if hs : s < 10 then ∑ p : Fin 10000, term ids h g j ⟨p.val + 10000 * s, by have := p.isLt; omega⟩ else 0

/-- The first k tiles' contributions, entry by entry. -/
def partSum (ids : IVec S100000x1 32) (h : FVec Ideal S100000x64 .f32) (k : ℕ) : S128x64.Idx → EReal :=
  fun i => ∑ s ∈ Finset.range k, tileSum ids h (i 0) (i 1) s

/-- One tile alone. -/
theorem partSum_one (ids : IVec S100000x1 32) (h : FVec Ideal S100000x64 .f32) (g : Fin 128) (j : Fin 64) :
    partSum ids h 1 (ix2 g j) = tileSum ids h g j 0 := by
  show ∑ s ∈ Finset.range 1, tileSum ids h g j s = _
  rw [Finset.sum_range_one]

/-- One more tile. -/
theorem partSum_succ (ids : IVec S100000x1 32) (h : FVec Ideal S100000x64 .f32) (k : ℕ) (g : Fin 128) (j : Fin 64) :
    partSum ids h (k + 1) (ix2 g j) = partSum ids h k (ix2 g j) + tileSum ids h g j k := by
  show ∑ s ∈ Finset.range (k + 1), tileSum ids h g j s = ∑ s ∈ Finset.range k, tileSum ids h g j s + _
  rw [Finset.sum_range_succ]

/-- All ten tiles: every node once (node n is node n mod 10000 of tile n / 10000). -/
theorem partSum_ten (ids : IVec S100000x1 32) (h : FVec Ideal S100000x64 .f32) : partSum ids h 10 = pooled ids h := by
  funext i
  show ∑ s ∈ Finset.range 10, tileSum ids h (i 0) (i 1) s = ∑ n : Fin 100000, term ids h (i 0) (i 1) n
  rw [Finset.sum_range]
  refine Eq.trans ?_ (Equiv.sum_comp (finProdFinEquiv (m := 10) (n := 10000))
    (fun n : Fin (10 * 10000) => term ids h (i 0) (i 1) n))
  rw [Fintype.sum_prod_type]
  refine Finset.sum_congr rfl fun s _ => ?_
  unfold tileSum
  rw [dif_pos s.isLt]
  rfl

variable [Cert.ReferenceIdeal.Facts]

/-- The scatter's dimension numbers, by a short name: the index column names operand axis 0, the update's axis 1 is the
    window over operand axis 1. -/
abbrev sc : ScatterDims S128x64 S100000x1 S100000x64 := scatter_S128x64_S100000x1_S100000x64_1_0_0_1

/-- Update (n, j') reads its start index at (n, 0) of the id column. -/
theorem siIdx_eq (n : Fin 100000) (j' : Fin 64) (c : Fin sc.scatterDimsToOperandDims.length) :
    sc.siIdx (ix2 n j') c = ix2 n 0 := by
  funext b
  apply Fin.ext
  match b with
  | ⟨0, h0⟩ =>
    unfold ScatterDims.siIdx
    have hne : ¬((⟨0, h0⟩ : Fin S100000x1.rank).val = sc.indexVectorDim) := Nat.zero_ne_one
    rw [dif_neg hne]
    unfold ScatterDims.siCoord
    simp only [Fin.val_cast]
    rfl
  | ⟨1, h1⟩ =>
    unfold ScatterDims.siIdx
    have he : (⟨1, h1⟩ : Fin S100000x1.rank).val = sc.indexVectorDim := rfl
    rw [dif_pos he]
    have := c.isLt
    show c.val = 0
    have hl : sc.scatterDimsToOperandDims.length = 1 := rfl
    omega

/-- On operand axis 0 the window starts at the node's id, read signed; -/
theorem start0 (ids : IVec S100000x1 32) (n : Fin 100000) (j' : Fin 64) :
    sc.start (ix2 n j') ids 0 = (ids (ix2 n 0)).toInt := by
  unfold ScatterDims.start
  rw [dif_pos (show (0 : Fin S128x64.rank) ∈ sc.scatterDimsToOperandDims from List.mem_singleton.mpr rfl), siIdx_eq]

/-- on operand axis 1 at 0. -/
theorem start1 (ids : IVec S100000x1 32) (n : Fin 100000) (j' : Fin 64) :
    sc.start (ix2 n j') ids 1 = 0 := by
  unfold ScatterDims.start
  rw [dif_neg (show ¬((1 : Fin S128x64.rank) ∈ sc.scatterDimsToOperandDims) from by
    show ¬((1 : Fin 2) ∈ [(0 : Fin 2)]); decide)]

/-- The window coordinate is 0 on operand axis 0 (an inserted axis) -/
theorem window0 (n : Fin 100000) (j' : Fin 64) : sc.window (ix2 n j') 0 = 0 := by
  unfold ScatterDims.window
  rw [dif_neg (show ¬((0 : Fin S128x64.rank) ∈ sc.sKept) from by
    show ¬((0 : Fin 2) ∈ [(1 : Fin 2)]); decide)]

/-- and the update's feature coordinate on operand axis 1. -/
theorem window1 (n : Fin 100000) (j' : Fin 64) : sc.window (ix2 n j') 1 = j'.val := by
  unfold ScatterDims.window
  rw [dif_pos (show (1 : Fin S128x64.rank) ∈ sc.sKept from by
    show ((1 : Fin 2) ∈ [(1 : Fin 2)]); decide)]
  rfl

/-- Update (n, j') lands on entry (g, j) exactly when node n's id is the word g and j' = j. -/
theorem lands_iff (ids : IVec S100000x1 32) (n : Fin 100000) (j' : Fin 64) (g : Fin 128) (j : Fin 64) :
    sc.resultIdx? (ix2 n j') ids = some (ix2 g j) ↔ (ids (ix2 n 0) = BitVec.ofNat 32 g.val ∧ j' = j) := by
  have s0 := start0 ids n j'
  have s1 := start1 ids n j'
  have w0 := window0 n j'
  have w1 := window1 n j'
  have hg := g.isLt
  have hj := j.isLt
  have hj' := j'.isLt
  have z0 : S128x64.size 0 = 128 := rfl
  have z1 : S128x64.size 1 = 64 := rfl
  have two : ∀ a : Fin S128x64.rank, a = 0 ∨ a = 1 := fun a => by
    have hlt : a.val < 2 := a.isLt
    rcases (by omega : a.val = 0 ∨ a.val = 1) with h | h
    · exact Or.inl (Fin.ext h)
    · exact Or.inr (Fin.ext h)
  unfold ScatterDims.resultIdx?
  constructor
  · intro h
    by_cases hall : ∀ a, 0 ≤ sc.start (ix2 n j') ids a + sc.window (ix2 n j') a
        ∧ sc.start (ix2 n j') ids a + sc.window (ix2 n j') a < S128x64.size a
    · rw [dif_pos hall] at h
      have hf := Option.some.inj h
      have e0 : (sc.start (ix2 n j') ids 0 + sc.window (ix2 n j') 0).toNat = g.val := congrArg Fin.val (congrFun hf 0)
      have e1 : (sc.start (ix2 n j') ids 1 + sc.window (ix2 n j') 1).toNat = j.val := congrArg Fin.val (congrFun hf 1)
      have b0 := hall 0
      rw [s0, w0] at e0 b0
      rw [s1, w1] at e1
      exact ⟨(toInt_eq_iff _ g.val hg).mp (by omega), Fin.ext (by omega)⟩
    · rw [dif_neg hall] at h
      exact absurd h (by simp)
  · rintro ⟨hid, rfl⟩
    have hT : (ids (ix2 n 0)).toInt = (g.val : ℤ) := (toInt_eq_iff _ g.val hg).mpr hid
    have hall : ∀ a, 0 ≤ sc.start (ix2 n j') ids a + sc.window (ix2 n j') a
        ∧ sc.start (ix2 n j') ids a + sc.window (ix2 n j') a < S128x64.size a := fun a => by
      rcases two a with rfl | rfl
      · rw [s0, w0, z0, hT]; omega
      · rw [s1, w1, z1]; omega
    rw [dif_pos hall]
    refine congrArg some (funext fun a => Fin.ext ?_)
    rcases two a with rfl | rfl
    · show (sc.start (ix2 n j') ids 0 + sc.window (ix2 n j') 0).toNat = g.val
      rw [s0, w0, hT]; omega
    · show (sc.start (ix2 n j') ids 1 + sc.window (ix2 n j') 1).toNat = j'.val
      rw [s1, w1]; omega

/-- The scatter-add of the node rows into the zero array, at entry (g, j): the nodes' contributions, summed. -/
theorem poolSum_apply (ids : IVec S100000x1 32) (h : FVec Ideal S100000x64 .f32) (g : Fin 128) (j : Fin 64) :
    Cert.Spec.poolSum ids h (ix2 g j) = ∑ n : Fin 100000, term ids h g j n := by
  show Ideal.hostScatterAdd sc _ ids h (ix2 g j) = _
  unfold Ideal.hostScatterAdd
  show Ideal.ofBits .f32 0x00000000#32 + _ = _
  rw [Ideal.ofBits_zero_f32, zero_add, Finset.sum_filter, sum_idx2]
  refine Finset.sum_congr rfl fun n _ => ?_
  simp only [lands_iff]
  unfold term
  by_cases hid : ids (ix2 n 0) = BitVec.ofNat 32 g.val
  · simp [hid, Finset.sum_ite_eq']
  · simp [hid]

/-- So the scatter-add IS the table of the nodes' summed contributions. -/
theorem poolSum_eq (ids : IVec S100000x1 32) (h : FVec Ideal S100000x64 .f32) :
    (Cert.Spec.poolSum ids h : S128x64.Idx → EReal) = pooled ids h := by
  funext i
  obtain ⟨g, j, rfl⟩ : ∃ (g : Fin 128) (j : Fin 64), i = ix2 g j := ⟨i 0, i 1, eq_ix2 i⟩
  exact poolSum_apply ids h g j

end Cert.Spec.Pool

end
-- ==== Proof.Reg4.lean ====
/- The pooling sums. The [128,64] accumulator is zeroed at the first grid point and every point adds the product of the
   transposed 0/1 indicator [ids[n] = g] (a [10000,128] tile) with the tile's node rows; after the tenth point it holds,
   at (g, j), the sum of H[n,j] over ALL nodes n with ids[n] = g: the same sum the scatter-add forms. -/
import proofs.«415113_j9629316678064_3_alg».proof.Proof.Gen.KernelIdeal.Frame
import proofs.«415113_j9629316678064_3_alg».proof.Proof.Gen.ReferenceIdeal
import proofs.«415113_j9629316678064_3_alg».proof.Proof.Spec
import proofs.«415113_j9629316678064_3_alg».proof.Proof.Reg4Pay
import proofs.«415113_j9629316678064_3_alg».proof.Proof.Reg4Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat)
open Cert.KernelIdeal Cert.KernelIdeal.Gen
open Cert.Spec.Pool (term tileSum partSum pooled)

/-! ## What the body leaves in the accumulator's buffer, case by case -/

section Pieces
variable {F : FTy → Type} [FloatOps F]

theorem hz : (![0, 0] : Fin 2 → Nat) = fun _ => 0 := funext fun a => by fin_cases a <;> rfl

/-- Away from the first point the body's one store covers the buffer: the update of what the buffer held. -/
theorem piece_B (c : Dev nD) (i : grid4.Coords) (a1 : Memref sig .tc .vmem S10000x1 .i32) (h1 : a1.IsWhole)
    (a2 : Memref sig .tc .vmem S10000x64 .f32) (h2 : a2.IsWhole) (a3 : Memref sig .tc .vmem S128x64 .f32) (h3 : a3.IsWhole)
    (hc : ¬cond4_0 i) (x0 : Vec F S10000x1 .i32) (x1 : Vec F S10000x64 .f32) (xo : Vec F S128x64 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero hz]
  simp only [View.readAt_eq_ld, h1.read_unread, h2.read_unread, h3.read_unread, View.ld_unit_zero (S := S10000x1) hz,
    View.ld_unit_zero (S := S10000x64) hz, View.ld_unit_zero (S := S128x64) hz]

/-- At the first point the body stores the zero block, reads it back and stores the update of it: the later store
    covers the buffer. -/
theorem piece_A (c : Dev nD) (i : grid4.Coords) (a1 : Memref sig .tc .vmem S10000x1 .i32) (h1 : a1.IsWhole)
    (a2 : Memref sig .tc .vmem S10000x64 .f32) (h2 : a2.IsWhole) (a3 : Memref sig .tc .vmem S128x64 .f32) (h3 : a3.IsWhole)
    (hc : cond4_0 i) (x0 : Vec F S10000x1 .i32) (x1 : Vec F S10000x64 .f32) :
    out4_A_2 c i a1 h1 a2 h2 a3 h3 hc x0 x1 = k4_pay2 x0 x1 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S128x64) hz, View.readCov_unit_zero (S := S128x64) _ hz]
  simp only [View.readAt_eq_ld, h1.read_unread, h2.read_unread, View.ld_unit_zero (S := S10000x1) hz,
    View.ld_unit_zero (S := S10000x64) hz, View.ld_unit_zero (S := S128x64) hz]

end Pieces

/-! ## One point's update, over a tile of the arrays -/

/-- When the two loaded blocks are tile s of the id column and of the node rows, the update adds tile s's contribution. -/
theorem step_apply (ids : IVec S100000x1 32) (h : FVec Ideal S100000x64 .f32) (x0 : Vec Ideal S10000x1 .i32)
    (x1 : Vec Ideal S10000x64 .f32) (acc : Vec Ideal S128x64 .f32) (s : ℕ) (hs : s < 10)
    (h0 : ∀ p : Fin 10000, x0 (ix2 p 0) = ids (ix2 ⟨p.val + 10000 * s, by have := p.isLt; omega⟩ 0))
    (h1 : ∀ (p : Fin 10000) (j : Fin 64), x1 (ix2 p j) = h (ix2 ⟨p.val + 10000 * s, by have := p.isLt; omega⟩ j))
    (g : Fin 128) (j : Fin 64) :
    k4_pay2 (F := Ideal) x0 x1 acc (ix2 g j) = acc (ix2 g j) + tileSum ids h g j s := by
  rw [pay2_apply]
  unfold tileSum
  rw [dif_pos hs]
  refine congrArg (acc (ix2 g j) + ·) (Finset.sum_congr rfl fun p _ => ?_)
  unfold term
  rw [h0 p, h1 p j]

-- V: the TensorCore's buffer contents when the region is entered
variable (V : (c : Dev nD) → (b : Ref sig .tc) → Buf (Elt Ideal) ((c : Thread nD τ).loc b)) (c : Dev nD)

/-- The id column and the node rows as the region finds them, and their tiles at a point. -/
abbrev idsArr : IVec S100000x1 32 := V c main_v58
abbrev rowsArr : FVec Ideal S100000x64 .f32 := V c main_v57
abbrev idsBlk (t : Fin cfg4.N) : Vec Ideal S10000x1 .i32 := iblk4 V c 0 t
abbrev rowsBlk (t : Fin cfg4.N) : Vec Ideal S10000x64 .f32 := iblk4 V c 1 t

/-- The printed index maps over the grid: the two input windows move down their arrays a tile a point, the
    accumulator's window stays on block (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

theorem lt_ten (t : Fin cfg4.N) : t.val < 10 := lt_of_lt_of_eq t.isLt (show cfg4.N = 10 from N_4)

/-- The id tile at point t is rows 10000·t … of the id column. -/
theorem ids_read (t : Fin cfg4.N) (p : Fin 10000) :
    idsBlk V c t (ix2 p 0) = idsArr V c (ix2 ⟨p.val + 10000 * t.val, by have := p.isLt; have := lt_ten t; omega⟩ 0) := by
  obtain ⟨e0, e1, -, -, -, -⟩ := idx_facts t
  show V c main_v58 (((cfg4.win 0).blk t).view.emb (ix2 p 0)) = V c main_v58 _
  refine congrArg (V c main_v58) (funext fun a => Fin.ext ?_)
  match a with
  | ⟨0, _⟩ => show win4_0.index t (0 : Fin 2) * 10000 + 1 * p.val = p.val + 10000 * t.val; omega
  | ⟨1, _⟩ => show win4_0.index t (1 : Fin 2) * 1 + 1 * 0 = 0; omega

/-- The feature tile at point t is rows 10000·t … of the node rows. -/
theorem rows_read (t : Fin cfg4.N) (p : Fin 10000) (j : Fin 64) :
    rowsBlk V c t (ix2 p j) = rowsArr V c (ix2 ⟨p.val + 10000 * t.val, by have := p.isLt; have := lt_ten t; omega⟩ j) := by
  obtain ⟨-, -, e0, e1, -, -⟩ := idx_facts t
  show V c main_v57 (((cfg4.win 1).blk t).view.emb (ix2 p j)) = V c main_v57 _
  refine congrArg (V c main_v57) (funext fun a => Fin.ext ?_)
  match a with
  | ⟨0, _⟩ => show win4_1.index t (0 : Fin 2) * 10000 + 1 * p.val = p.val + 10000 * t.val; omega
  | ⟨1, _⟩ => show win4_1.index t (1 : Fin 2) * 64 + 1 * j.val = j.val; omega

/-! ## The accumulator after each point -/

/-- At the first point the buffer is left at the zero block plus the first tile's contribution. -/
theorem after_A (t : Fin cfg4.N) (h0 : t.val % 10 = 0) (g : Fin 128) (j : Fin 64) :
    outsAt4 V c t.val t.isLt (ix2 g j) = tileSum (idsArr V c) (rowsArr V c) g j t.val := by
  rw [outsAt4_A V c t h0]
  refine (congrFun (piece_A (F := Ideal) c (grid4.coords t) (ms4_0 t) (hs4_0 t) (ms4_1 t) (hs4_1 t) (ms4_2 t) (hs4_2 t)
    ((hcond4_0 t).mpr h0) (iblk4 V c 0 t) (iblk4 V c 1 t)) (ix2 g j)).trans ?_
  refine (step_apply (idsArr V c) (rowsArr V c) (idsBlk V c t) (rowsBlk V c t) (k4_pay1 (F := Ideal)) t.val (lt_ten t)
    (ids_read V c t) (rows_read V c t) g j).trans ?_
  show Ideal.ofBits .f32 0x00000000#32 + _ = _
  rw [Ideal.ofBits_zero_f32, zero_add]

/-- At a later point the buffer gains that point's tile. -/
theorem after_B (t : Fin cfg4.N) (h0 : ¬t.val % 10 = 0) (g : Fin 128) (j : Fin 64) :
    outsAt4 V c t.val t.isLt (ix2 g j)
      = outsAt4 V c (t.val - 1) (Nat.lt_of_le_of_lt (Nat.sub_le _ _) t.isLt) (ix2 g j)
        + tileSum (idsArr V c) (rowsArr V c) g j t.val := by
  rw [outsAt4_B V c t h0]
  refine (congrFun (piece_B (F := Ideal) c (grid4.coords t) (ms4_0 t) (hs4_0 t) (ms4_1 t) (hs4_1 t) (ms4_2 t) (hs4_2 t)
    (fun h => h0 ((hcond4_0 t).mp h)) (iblk4 V c 0 t) (iblk4 V c 1 t)
    (outsAt4 V c (t.val - 1) (Nat.lt_of_le_of_lt (Nat.sub_le _ _) t.isLt))) (ix2 g j)).trans ?_
  exact step_apply (idsArr V c) (rowsArr V c) (idsBlk V c t) (rowsBlk V c t)
    (outsAt4 V c (t.val - 1) (Nat.lt_of_le_of_lt (Nat.sub_le _ _) t.isLt)) t.val (lt_ten t)
    (ids_read V c t) (rows_read V c t) g j

/-- After point n the buffer holds the first n + 1 tiles' contributions: by induction on the point. -/
theorem outsAt_eq : ∀ (n : ℕ) (hn : n < cfg4.N),
    outsAt4 V c n hn = partSum (idsArr V c) (rowsArr V c) (n + 1)
  | 0, hn => by
    funext i
    obtain ⟨g, j, rfl⟩ : ∃ (g : Fin 128) (j : Fin 64), i = ix2 g j := ⟨i 0, i 1, eq_ix2 i⟩
    rw [Cert.Spec.Pool.partSum_one]
    exact after_A V c ⟨0, hn⟩ rfl g j
  | n + 1, hn => by
    have hN : cfg4.N = 10 := N_4
    have hB : ¬(⟨n + 1, hn⟩ : Fin cfg4.N).val % 10 = 0 := by dsimp only; omega
    funext i
    obtain ⟨g, j, rfl⟩ : ∃ (g : Fin 128) (j : Fin 64), i = ix2 g j := ⟨i 0, i 1, eq_ix2 i⟩
    rw [Cert.Spec.Pool.partSum_succ]
    refine (after_B V c ⟨n + 1, hn⟩ hB g j).trans ?_
    show outsAt4 V c n _ (ix2 g j) + _ = _
    rw [outsAt_eq n (Nat.lt_of_succ_lt hn)]

/-! ## The array after the region -/

/-- The one write-back, after the last point, writes the whole table: the accumulator's block is the whole array. -/
theorem flushed_eq (t : Fin cfg4.N) (hf : (cfg4.win 2).flush t = true) :
    (dat4 (F := Ideal) V c).flushed 2 t
      = ((cfg4.win 2).blk t).view.read (Elt Ideal) (pooled (idsArr V c) (rowsArr V c)) := by
  have h9 : t.val = 9 := by have := (flush4_2 t).mp hf; have := lt_ten t; omega
  obtain rfl : t = t4_9 := Fin.ext h9
  show (cfg4.win 2).cut (grid4.coords t4_9) ((dat4 (F := Ideal) V c).after 2 t4_9) = _
  rw [after4_2, outsAt_eq, show (t4_9 : Fin cfg4.N).val + 1 = 10 from rfl, Cert.Spec.Pool.partSum_ten]
  have hz' : (fun a => win4_2.index t4_9 a * main_v59.ty.shape.size a) = fun _ => 0 :=
    funext fun a => by fin_cases a <;> decide +kernel
  exact (Memref.read_access_unit_zero (Elt Ideal) main_v59 hz' (fun a => by rw [congrFun hz' a]; simp)
    (pooled (idsArr V c) (rowsArr V c))).symm

/-- Every entry of the array is in the last point's block. -/
theorem cover (i : S128x64.Idx) :
    ∃ t : Fin cfg4.N, (cfg4.win 2).flush t = true ∧ i ∈ ((cfg4.win 2).blk t).view.set := by
  refine ⟨t4_9, (flush4_2 t4_9).mpr rfl, ?_⟩
  obtain ⟨-, -, -, -, e0, e1⟩ := idx_facts t4_9
  show i ∈ ((View.whole main_v59).slice (win4_2.rect t4_9)).set
  rw [View.set_slice_whole, Rect.mem_set_unit]
  intro a
  have h0 : (i 0 : Nat) < 128 := (i 0).isLt
  have h1 : (i 1 : Nat) < 64 := (i 1).isLt
  match a with
  | ⟨0, _⟩ =>
    show win4_2.index t4_9 (0 : Fin 2) * 128 ≤ (i 0 : Nat) ∧ (i 0 : Nat) < win4_2.index t4_9 (0 : Fin 2) * 128 + 128
    omega
  | ⟨1, _⟩ =>
    show win4_2.index t4_9 (1 : Fin 2) * 64 ≤ (i 1 : Nat) ∧ (i 1 : Nat) < win4_2.index t4_9 (1 : Fin 2) * 64 + 64
    omega

/-- After the region the accumulator array holds the per-graph sums of the node rows, by the ids the region was entered with. -/
theorem value : (dat4 (F := Ideal) V c).arrAt 2 cfg4.N
    = (Cert.Spec.poolSum (V c main_v58) (V c main_v57) : Cert.ReferenceIdeal.S128x64.Idx → EReal) := by
  rw [Cert.Spec.Pool.poolSum_eq]
  exact (dat4 (F := Ideal) V c).arrAt_eq_of_cover 2 (pooled (idsArr V c) (rowsArr V c)) (flushed_eq V c) (cover)

end Cert.KernelIdeal.Reg4

end
-- ==== Proof.Reg5.lean ====
/- The final projection: one grid point, one block: pooled·W_lin + b_lin.

   The region's grid has a single point, and each of its four windows is a whole array: the pooled features [128,64],
   the weights [64,10], the bias [10] and the result [128,10]. The body loads the three operands whole, multiplies
   the first two into a zero accumulator, adds the bias as a row spread over the 128 rows, and stores the result
   whole. At the extended reals the two roundings to bf16 are the identity, so entry (g, o) of what is stored is
   (∑ k : Fin 64, P[g,k]·W[k,o]) + b[o] — the same sum, over the same dimension numbers, that the reference's
   dot_general names, plus the same bias entry. The steps:

     * `dims_eq`, `payload_eq`      — the body's arithmetic is `Cert.Spec.linearOut` of its three loaded operands;
     * `index_facts`, `pooled_block`, `weight_block`, `bias_block`
                                    — every window's block index is 0 on every axis, so each input block is its array;
     * `written_back`              — what the one point writes back is the one block of `linearOut` of the three arrays;
     * `mem_out_block`, `out_block_covers`
                                    — that block is the whole result array;
     * `value`                     — so the array ends holding `linearOut` of the arrays the region was entered with. -/
import proofs.«415113_j9629316678064_3_alg».proof.Proof.Gen.KernelIdeal.Frame
import proofs.«415113_j9629316678064_3_alg».proof.Proof.Gen.ReferenceIdeal
import proofs.«415113_j9629316678064_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg5

open Idealize.ShloMosaic Idealize.ShloMosaic.TcCoe Idealize.SL.Sem Idealize.ShloMosaic.ValueIdx
open Cert.KernelIdeal Cert.KernelIdeal.Gen

/-! ## The body's arithmetic -/

/-- The kernel and the reference spell the [128,64]·[64,10] product with the same dimension numbers (contract the
    left operand's axis 1 with the right operand's axis 0, no batch axis) over the same three shapes: one record. -/
theorem dims_eq : Cert.KernelIdeal.dot_S128x64_S64x10_S128x10_1_0_0_1_n_n
    = Cert.ReferenceIdeal.dot_S128x64_S64x10_S128x10_1_0_0_1_n_n := rfl

/-- What the body stores, as a function of the three operands it loaded, is `linearOut` of them. At entry (p, q):
    the product into the zero accumulator is the bare sum over the contraction index of the operands' products (the
    zero is absorbed on the left), with the casts to bf16 and the cast of a shape to itself the identity, and the
    reference's dot_general is the same sum over the same record; the bias, cast [10] → [1,10] and spread over the
    rows, reads b[q], and so do the reference's two broadcasts (first along the new unit axis, then over the rows). -/
theorem payload_eq (x0 : Vec Ideal S128x64 .f32) (x1 : Vec Ideal S64x10 .f32) (x2 : Vec Ideal S10 .f32) :
    k5_pay1 x0 x1 x2 = Cert.Spec.linearOut x0 x1 x2 := by
  funext j
  obtain ⟨p, q, rfl⟩ : ∃ (p : Fin 128) (q : Fin 10), j = ix2 p q := ⟨j 0, j 1, eq_ix2 j⟩
  unfold k5_pay1 Cert.Spec.linearOut
  dsimp only
  rw [addf_apply, addf_apply]
  refine congrArg₂ (· + ·) ?_ ?_
  · -- the product: both sides are ∑ k, x0 (lhsIdx (p,q) k) * x1 (rhsIdx (p,q) k) over the one record
    rw [shapeCast_self]
    simp only [matmul, Host.dotGeneral]
    rw [Ideal.matmul_constant_zero_apply, Ideal.dotGeneral_apply, dims_eq]
    rfl
  · -- the bias: both sides are x2 at q
    rw [broadcastTo_1b_ab_apply, shapeCast_a_1a_apply]
    refine ((broadcastInDim_apply _ _ _ (ix2 p q) (ix2 (0 : Fin 1) q) fun a => ?_).trans
      (broadcastInDim_apply _ _ x2 (ix2 (0 : Fin 1) q) (ix1 q) fun a => ?_)).symm
    · -- [1,10] → [128,10] along axes (0,1): the unit axis reads 0, the other axis reads q
      match a with
      | ⟨0, _⟩ => rfl
      | ⟨1, _⟩ => rfl
    · -- [10] → [1,10] along axis 1: reads q
      match a with
      | ⟨0, _⟩ => rfl

/-! ## The windows' blocks: each is its whole array -/

theorem zeros2 : (![0, 0] : Fin 2 → Nat) = fun _ => 0 := funext fun a => by fin_cases a <;> rfl
theorem zeros1 : (![0] : Fin 1 → Nat) = fun _ => 0 := funext fun a => by fin_cases a; rfl

/-- Every window's index map is constantly 0 on every axis (decided over the grid's one point). -/
theorem index_facts : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0 :=
  (by decide +kernel : ∀ t : Fin grid5.N, _)

-- V: the TensorCore's buffer contents when the region is entered
variable (V : (c : Dev nD) → (b : Ref sig .tc) → Buf (Elt Ideal) ((c : Thread nD τ).loc b)) (c : Dev nD)

/-- Window 0's block is the whole pooled array: entry y of the block sits at 0·128 + y₀, 0·64 + y₁. -/
theorem pooled_block (t : Fin cfg5.N) : (iblk5 V c 0 t : Vec Ideal S128x64 .f32) = V c main_v68 := by
  obtain ⟨e0, e1, -⟩ := index_facts t
  funext y
  show V c main_v68 (((cfg5.win 0).blk t).view.emb y) = V c main_v68 y
  refine congrArg (V c main_v68) (funext fun a => Fin.ext ?_)
  match a with
  | ⟨0, _⟩ => show win5_0.index t (0 : Fin 2) * 128 + 1 * (y 0).val = (y 0).val; omega
  | ⟨1, _⟩ => show win5_0.index t (1 : Fin 2) * 64 + 1 * (y 1).val = (y 1).val; omega

/-- Window 1's block is the whole weight array. -/
theorem weight_block (t : Fin cfg5.N) : (iblk5 V c 1 t : Vec Ideal S64x10 .f32) = V c main_arg7 := by
  obtain ⟨-, -, e0, e1, -⟩ := index_facts t
  funext y
  show V c main_arg7 (((cfg5.win 1).blk t).view.emb y) = V c main_arg7 y
  refine congrArg (V c main_arg7) (funext fun a => Fin.ext ?_)
  match a with
  | ⟨0, _⟩ => show win5_1.index t (0 : Fin 2) * 64 + 1 * (y 0).val = (y 0).val; omega
  | ⟨1, _⟩ => show win5_1.index t (1 : Fin 2) * 10 + 1 * (y 1).val = (y 1).val; omega

/-- Window 2's block is the whole bias array. -/
theorem bias_block (t : Fin cfg5.N) : (iblk5 V c 2 t : Vec Ideal S10 .f32) = V c main_arg8 := by
  obtain ⟨-, -, -, -, e0, -⟩ := index_facts t
  funext y
  show V c main_arg8 (((cfg5.win 2).blk t).view.emb y) = V c main_arg8 y
  refine congrArg (V c main_arg8) (funext fun a => Fin.ext ?_)
  match a with
  | ⟨0, _⟩ => show win5_2.index t (0 : Fin 1) * 10 + 1 * (y 0).val = (y 0).val; omega

/-! ## From the one block to the array -/

/-- What point `t` writes back to the result array is block `t` of `linearOut` of the three arrays as the region
    finds them: the body's one store covers its buffer, its payload is `linearOut` of the loaded blocks, the blocks
    are the arrays, and the output block's entry j sits at j (block index 0 on both axes). -/
theorem written_back (t : Fin cfg5.N) :
    (dat5 (F := Ideal) V c).flushed 3 t
      = ((cfg5.win 3).blk t).view.read (Elt Ideal) (Cert.Spec.linearOut (V c main_v68) (V c main_arg7) (V c main_arg8)) := by
  show (cfg5.win 3).cut (grid5.coords t) ((dat5 V c).after 3 t) = _
  rw [after5_3]
  unfold out5_3
  rw [View.canon_unit_zero zeros2]
  simp only [View.ld_unit_zero (S := S128x64) zeros2, View.ld_unit_zero (S := S64x10) zeros2, View.ld_unit_zero (S := S10) zeros1]
  rw [payload_eq, pooled_block, weight_block, bias_block]
  obtain ⟨-, -, -, -, -, e0, e1⟩ := index_facts t
  generalize Cert.Spec.linearOut (V c main_v68) (V c main_arg7) (V c main_arg8) = G
  funext j
  show G j = G (((cfg5.win 3).blk t).view.emb j)
  refine congrArg G (funext fun a => Fin.ext ?_)
  match a with
  | ⟨0, _⟩ => show (j 0).val = win5_3.index t (0 : Fin 2) * 128 + 1 * (j 0).val; omega
  | ⟨1, _⟩ => show (j 1).val = win5_3.index t (1 : Fin 2) * 10 + 1 * (j 1).val; omega

/-- An index of the result array is in point `t`'s block iff each coordinate is in the block's range on its axis. -/
theorem mem_out_block (t : Fin cfg5.N) (i : S128x10.Idx) :
    i ∈ ((cfg5.win 3).blk t).view.set
      ↔ ∀ a : Fin 2, win5_3.index t a * S128x10.size a ≤ (i a).val ∧ (i a).val < win5_3.index t a * S128x10.size a + S128x10.size a := by
  show i ∈ ((View.whole main_v69).slice (win5_3.rect t)).set ↔ _
  rw [View.set_slice_whole, Rect.mem_set_unit]
  exact Iff.rfl

/-- The one point's block is the whole result array: rows 0 … 127, columns 0 … 9. -/
theorem out_block_covers (i : S128x10.Idx) :
    ∃ t : Fin cfg5.N, (cfg5.win 3).flush t = true ∧ i ∈ ((cfg5.win 3).blk t).view.set := by
  refine ⟨t5_0, flush5_3 t5_0, ?_⟩
  obtain ⟨-, -, -, -, -, e0, e1⟩ := index_facts t5_0
  rw [mem_out_block]
  intro a
  match a with
  | ⟨0, _⟩ =>
    show win5_3.index t5_0 (0 : Fin 2) * 128 ≤ (i 0).val ∧ (i 0).val < win5_3.index t5_0 (0 : Fin 2) * 128 + 128
    have h : (i 0).val < 128 := (i 0).isLt
    omega
  | ⟨1, _⟩ =>
    show win5_3.index t5_0 (1 : Fin 2) * 10 ≤ (i 1).val ∧ (i 1).val < win5_3.index t5_0 (1 : Fin 2) * 10 + 10
    have h : (i 1).val < 10 := (i 1).isLt
    omega

/-- After the region the output array holds pooled·W_lin + b_lin of the three arrays the region was entered with. -/
theorem value : (dat5 (F := Ideal) V c).arrAt 3 cfg5.N
    = (Cert.Spec.linearOut (V c main_v68) (V c main_arg7) (V c main_arg8) : Cert.ReferenceIdeal.S128x10.Idx → EReal) :=
  (dat5 (F := Ideal) V c).arrAt_eq_of_cover 3 _ (fun t _ => written_back V c t) out_block_covers

end Cert.KernelIdeal.Reg5

end
-- ==== Proof.lean ====
/-
  A two-layer graph convolution with mean pooling and a linear read-out: the tiled kernel program against the plain one,
  over the extended reals.

  Both programs run the same host steps on the edge list — the degree count, deg^(-1/2), the per-edge weights, the two
  neighbour sums (gather the source rows, weigh, scatter-add at the destinations), the per-graph node counts and the
  division by them. They differ in the six dense stages, which the kernel program computes tile by tile on the
  TensorCore: X·W₁ and H·W₂ in ten row tiles each; the two per-node combines agg + s ⊙ XW + b (the first under a ramp) in
  ten row tiles; the per-graph sums as a product with the 0/1 indicator of the graph ids accumulated over ten tiles, where
  the reference scatter-adds the node rows at their ids; and pooled·W_lin + b_lin in one block. Each stage's array after
  its region is the stage's whole-array function of the arrays the region was entered with (`Reg0 … Reg5`); the kernel
  program's segments then compose to `Cert.Terms.whole` of the nine arguments (`Fold`), which is also the reference run's
  composed term (`RefRun`). No law beyond 0 + x = x, 0·x = 0, 1·x = x and the re-association of finite sums is used, so
  the finiteness of the inputs is never opened.

  The three frame conjuncts are the generated frames (the reference's is its generated run with the result dropped); the
  idealization rewrote nothing, so `preserves` is trivial.
-/
import proofs.«415113_j9629316678064_3_alg».proof.Defs
import proofs.«415113_j9629316678064_3_alg».proof.Proof.Gen.Kernel
import proofs.«415113_j9629316678064_3_alg».proof.Proof.Gen.Kernel.Frame
import proofs.«415113_j9629316678064_3_alg».proof.Proof.Gen.KernelIdeal
import proofs.«415113_j9629316678064_3_alg».proof.Proof.Gen.KernelIdeal.Frame
import proofs.«415113_j9629316678064_3_alg».proof.Proof.Gen.ReferenceIdeal
import proofs.«415113_j9629316678064_3_alg».proof.Proof.Gen.ReferenceIdeal.Run
import proofs.«415113_j9629316678064_3_alg».proof.Proof.Gen.Pre_finite_inputs
import proofs.«415113_j9629316678064_3_alg».proof.Proof.KRun
import proofs.«415113_j9629316678064_3_alg».proof.Proof.Fold
import proofs.«415113_j9629316678064_3_alg».proof.Proof.RefRun
import proofs.«415113_j9629316678064_3_alg».proof.Proof.Reg0
import proofs.«415113_j9629316678064_3_alg».proof.Proof.Reg1
import proofs.«415113_j9629316678064_3_alg».proof.Proof.Reg2
import proofs.«415113_j9629316678064_3_alg».proof.Proof.Reg3
import proofs.«415113_j9629316678064_3_alg».proof.Proof.Reg4
import proofs.«415113_j9629316678064_3_alg».proof.Proof.Reg5
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the result buffer at the network's function of
    those arguments: the kernel program by the walk through its segments, the reference by its run's composed term. -/
theorem algebraic : Cert.algebraic_KernelIdeal_ReferenceIdeal := by
  intro m ρ m' ρ' _ hagree
  refine ⟨fun c => Cert.Terms.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Fold.W12_out m ρ c Cert.KernelIdeal.Reg0.value Cert.KernelIdeal.Reg1.value
          Cert.KernelIdeal.Reg2.value Cert.KernelIdeal.Reg3.value Cert.KernelIdeal.Reg4.value Cert.KernelIdeal.Reg5.value), (h c).2⟩)
      (Cert.KernelIdeal.RunV.run (F := Ideal) m ρ)
  · refine (θ_run Cert.ReferenceIdeal.defs _ _).mono
      (fun _ h c => ⟨(h c).1.trans ((Cert.ReferenceIdeal.RefValue.res_eq m' c).trans ?_), (h c).2⟩)
      (Cert.ReferenceIdeal.Value.run (F := Ideal) m' ρ')
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
